-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S500x128 : Shape := ⟨2, ![500, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : IVec S128 32) (main_v12 : IVec S_ 1) (main_v15 : IVec S_ 1) : IVec S_ 1 :=
  let main_v16 : IVec S_ 1 := andi main_v12 main_v15
  let main_c_6 : IVec S_ 32 := constantI S_ 32 0#32
  let main_v17 : IVec S128 32 := broadcastInDim S128 ![] bcast_S_S128 main_c_6
  let main_v18 : IVec S128 1 := cmpi .sge main_arg3 main_v17
  let main_c_7 : IVec S_ 1 := constantI S_ 1 1#1
  let main_v19 : IVec S_ 1 := (fun x v => Host.reduce IntOp.andi x v reducesTo_S128_S_d0 h_S_) main_v18 main_c_7
  let main_v20 : IVec S_ 1 := andi main_v16 main_v19
  let main_c_8 : IVec S_ 32 := constantI S_ 32 500#32
  let main_v21 : IVec S128 32 := broadcastInDim S128 ![] bcast_S_S128 main_c_8
  let main_v22 : IVec S128 1 := cmpi .slt main_arg3 main_v21
  let main_c_9 : IVec S_ 1 := constantI S_ 1 1#1
  let main_v23 : IVec S_ 1 := (fun x v => Host.reduce IntOp.andi x v reducesTo_S128_S_d0 h_S_) main_v22 main_c_9
  let main_v24 : IVec S_ 1 := andi main_v20 main_v23
  main_v24

def fn {F : FTy → Type} [FloatOps F] (main_arg0 : FVec F S10000x128 .f32) (main_arg1 : FVec F S500x128 .f32) (main_arg2 : IVec S128 32) (main_arg3 : IVec S128 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg2 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  let main_c_4 : IVec S_ 32 := constantI S_ 32 10000#32
  let main_v13 : IVec S128 32 := broadcastInDim S128 ![] bcast_S_S128 main_c_4
  let main_v14 : IVec S128 1 := cmpi .slt main_arg2 main_v13
  let main_c_5 : IVec S_ 1 := constantI S_ 1 1#1
  let main_v15 : IVec S_ 1 := (fun x v => Host.reduce IntOp.andi x v reducesTo_S128_S_d0 h_S_) main_v14 main_c_5
  fn_part1 (F := F) main_arg3 main_v12 main_v15
-- ==== Kernel.lean ====
abbrev S10000x128 : Shape := ⟨2, ![10000, 128]⟩
abbrev S500x128 : Shape := ⟨2, ![500, 128]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x128 : Shape := ⟨2, ![128, 128]⟩
abbrev S10000 : Shape := ⟨1, ![10000]⟩
abbrev S10000x1 : Shape := ⟨2, ![10000, 1]⟩
abbrev S10240x128 : Shape := ⟨2, ![10240, 128]⟩
abbrev S128x10240 : Shape := ⟨2, ![128, 10240]⟩
abbrev S64x128 : Shape := ⟨2, ![64, 128]⟩
abbrev S64x10240 : Shape := ⟨2, ![64, 10240]⟩
abbrev S64x128x1 : Shape := ⟨3, ![64, 128, 1]⟩
abbrev S128x512 : Shape := ⟨2, ![128, 512]⟩
abbrev S1x128x512 : Shape := ⟨3, ![1, 128, 512]⟩
abbrev S64x128x512 : Shape := ⟨3, ![64, 128, 512]⟩
abbrev S64x512 : Shape := ⟨2, ![64, 512]⟩
abbrev S64 : Shape := ⟨1, ![64]⟩
abbrev S64x1 : Shape := ⟨2, ![64, 1]⟩
abbrev S128x10000 : Shape := ⟨2, ![128, 10000]⟩

abbrev nBuf : Space → Nat
  | .hbm => 87
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S500x128, .f32⟩
  | .hbm, ⟨2, _⟩ => ⟨S128, .i32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S1x1, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i1⟩
  | .hbm, ⟨21, _⟩ => ⟨S128, .i1⟩
  | .hbm, ⟨22, _⟩ => ⟨S128x128, .f32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S128x128, .f32⟩
  | .hbm, ⟨36, _⟩ => ⟨S128x128, .f32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S1, .i32⟩
  | .hbm, ⟨46, _⟩ => ⟨S_, .i32⟩
  | .hbm, ⟨47, _⟩ => ⟨S128x1, .i32⟩
  | .hbm, ⟨48, _⟩ => ⟨S128x1, .i1⟩
  | .hbm, ⟨49, _⟩ => ⟨S1x1, .i32⟩
  | .hbm, ⟨50, _⟩ => ⟨S128x1, .i32⟩
  | .hbm, ⟨51, _⟩ => ⟨S128x1, .i1⟩
  | .hbm, ⟨52, _⟩ => ⟨S128x1, .i1⟩
  | .hbm, ⟨53, _⟩ => ⟨S_, .i1⟩
  | .hbm, ⟨54, _⟩ => ⟨S128, .i1⟩
  | .hbm, ⟨55, _⟩ => ⟨S128x128, .f32⟩
  | .hbm, ⟨56, _⟩ => ⟨S128x128, .i1⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S_, .f32⟩
  | .hbm, ⟨62, _⟩ => ⟨S128, .f32⟩
  | .hbm, ⟨63, _⟩ => ⟨S128x1, .f32⟩
  | .hbm, ⟨64, _⟩ => ⟨S128x1, .f32⟩
  | .hbm, ⟨65, _⟩ => ⟨S_, .f32⟩
  | .hbm, ⟨66, _⟩ => ⟨S128x1, .f32⟩
  | .hbm, ⟨67, _⟩ => ⟨S128x1, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S10000x128, .f32⟩
  | .hbm, ⟨72, _⟩ => ⟨S_, .f32⟩
  | .hbm, ⟨73, _⟩ => ⟨S10000, .f32⟩
  | .hbm, ⟨74, _⟩ => ⟨S10000x1, .f32⟩
  | .hbm, ⟨75, _⟩ => ⟨S10000x1, .f32⟩
  | .hbm, ⟨76, _⟩ => ⟨S_, .f32⟩
  | .hbm, ⟨77, _⟩ => ⟨S10000x1, .f32⟩
  | .hbm, ⟨78, _⟩ => ⟨S10000x1, .f32⟩
  | .hbm, ⟨79, _⟩ => ⟨S10000x128, .f32⟩
  | .hbm, ⟨80, _⟩ => ⟨S10000x128, .f32⟩
  | .hbm, ⟨81, _⟩ => ⟨S_, .i32⟩
  | .hbm, ⟨82, _⟩ => ⟨S_, .f32⟩
  | .hbm, ⟨83, _⟩ => ⟨S10240x128, .f32⟩
  | .hbm, ⟨84, _⟩ => ⟨S128x10240, .f32⟩
  | .hbm, ⟨85, _⟩ => ⟨S128x10240, .f32⟩
  | .hbm, ⟨86, _⟩ => ⟨S128x10000, .f32⟩
  | .local _ .vmem, ⟨0, _⟩ => ⟨S64x128, .f32⟩
  | .local _ .vmem, ⟨1, _⟩ => ⟨S64x128, .f32⟩
  | .local _ .vmem, ⟨2, _⟩ => ⟨S128x10240, .f32⟩
  | .local _ .vmem, ⟨3, _⟩ => ⟨S64x10240, .f32⟩
  | .local _ .vmem, ⟨4, _⟩ => ⟨S64x10240, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_cst_3 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_4 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_c : Ref sig .tc := ⟨.hbm, 81, rfl⟩
abbrev main_call2_v0 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c20_i32 : BitVec 32 := 20#32
  let v3 : BitVec 32 := Scalar.addi c0_i32 c20_i32
  let c1_i32 : BitVec 32 := 1#32
  ⟨c0_i32, v3, c1_i32⟩
def k0_mult1 (k0_t1 : Fin k0_t1_loop.trips) : BitVec 32 :=
  let c0_i32_9 : BitVec 32 := 0#32
  let c0_i32 : BitVec 32 := 0#32
  let c1_i32 : BitVec 32 := 1#32
  let arg4 : BitVec 32 := Scf.iv c0_i32 c1_i32 k0_t1
  let c1_i32_8 : BitVec 32 := 1#32
  let v21 : BitVec 32 := Scalar.muli arg4 c1_i32_8
  let v22 : BitVec 32 := Scalar.addi c0_i32_9 v21
  let c512_i32 : BitVec 32 := 512#32
  let v23 : BitVec 32 := Scalar.muli v22 c512_i32
  v23
def k0_off1 (k0_t1 : Fin k0_t1_loop.trips) : Fin 2 → Nat :=
  let c0_10 : Index := 0#32
  let c0_i32_9 : BitVec 32 := 0#32
  let c0_i32 : BitVec 32 := 0#32
  let c1_i32 : BitVec 32 := 1#32
  let arg4 : BitVec 32 := Scf.iv c0_i32 c1_i32 k0_t1
  let c1_i32_8 : BitVec 32 := 1#32
  let v21 : BitVec 32 := Scalar.muli arg4 c1_i32_8
  let v22 : BitVec 32 := Scalar.addi c0_i32_9 v21
  let c512_i32 : BitVec 32 := 512#32
  let v23 : BitVec 32 := Scalar.muli v22 c512_i32
  let v24 : BitVec 32 := v23
  let v25 : Index := Scalar.indexCast v24
  ![0, v25.toNat]
def k0_off2 (k0_t1 : Fin k0_t1_loop.trips) : Fin 2 → Nat :=
  let c0_12 : Index := 0#32
  let c0_i32_9 : BitVec 32 := 0#32
  let c0_i32 : BitVec 32 := 0#32
  let c1_i32 : BitVec 32 := 1#32
  let arg4 : BitVec 32 := Scf.iv c0_i32 c1_i32 k0_t1
  let c1_i32_8 : BitVec 32 := 1#32
  let v21 : BitVec 32 := Scalar.muli arg4 c1_i32_8
  let v22 : BitVec 32 := Scalar.addi c0_i32_9 v21
  let c512_i32 : BitVec 32 := 512#32
  let v23 : BitVec 32 := Scalar.muli v22 c512_i32
  let v24 : BitVec 32 := v23
  let v34 : Index := Scalar.indexCast v24
  ![0, v34.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S128x128_0 : S128.BroadcastsInDim S128x128 (![0] : Fin 1 → Fin S128x128.rank)
  bcast_S_S128x128 : S_.BroadcastsInDim S128x128 (![] : Fin 0 → Fin S128x128.rank)
  reducesTo_S128x128_S128_d1 : S128x128.ReducesTo [1] S128
  bcast_S128x1_S128x128_0_1 : S128x1.BroadcastsInDim S128x128 (![0, 1] : Fin 2 → Fin S128x128.rank)
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  pads_S10000x128_S10240x128_02400_000 : S10000x128.Pads (![0, 0] : Fin 2 → Nat) ![240, 0] ![0, 0] S10240x128
  transposes_S10240x128_S128x10240_1_0 : S10240x128.Transposes [1, 0] S128x10240
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  h_S128x512 : 0 < S128x512.numel
  shapeCasts_S128x512_S128x512 : S128x512.ShapeCasts S128x512
  shapeCasts_S128x512_S1x128x512 : S128x512.ShapeCasts S1x128x512
  broadcasts_S64x128x1_S64x128x512 : S64x128x1.Broadcasts S64x128x512
  broadcasts_S1x128x512_S64x128x512 : S1x128x512.Broadcasts S64x128x512
  reduces_S64x128x512_S64x512 : S64x128x512.Reduces [1] S64x512
  h_S64x512 : 0 < S64x512.numel
  inb_S64x10240_S64x10240_0_0 : ∀ a, (![0, 0] : Fin 2 → Nat) a + S64x10240.size a ≤ S64x10240.size a
  h_S64x10240 : 0 < S64x10240.numel
  shapeCasts_S64x10240_S64x10240 : S64x10240.ShapeCasts S64x10240
  iota_S64x10240_d1_w32 : S64x10240.Iotas .tc 32 [1]
  reduces_S64x10240_S64 : S64x10240.Reduces [1] S64
  shapeCasts_S64_S64x1 : S64.ShapeCasts S64x1
  broadcasts_S64x1_S64x10240 : S64x1.Broadcasts S64x10240
  slices_S128x10240_S128x10000_0_0 : S128x10240.Slices ![0, 0] S128x10000
  gather_S10000x128_S128x1_S128x128_1_0_n_n_0_1_1128_wf : GatherDims.WF S10000x128 S128x1 S128x128 [1] [0] [] [0] [] 1 ![1, 128]
  gather_S500x128_S128x1_S128x128_1_0_n_n_0_1_1128_wf : GatherDims.WF S500x128 S128x1 S128x128 [1] [0] [] [0] [] 1 ![1, 128]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x512.size a ≤ S128x10240.size a
  k0_off2_inb : ∀ k0_t1 : Fin k0_t1_loop.trips, ∀ a, (k0_off2 k0_t1) a + S64x512.size a ≤ S64x10240.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S128x128.size a
  hwx0_0 : ∀ i : grid0.Coords, EltTy.bits .f32 = 32 ∨ (Rect.block (s := S128x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10240.size a ≤ S128x10240.size a
  hwx0_1 : ∀ i : grid0.Coords, EltTy.bits .f32 = 32 ∨ (Rect.block (s := S128x10240) S128x10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10240.size a ≤ S128x10240.size a
  hwx0_2 : ∀ i : grid0.Coords, EltTy.bits .f32 = 32 ∨ (Rect.block (s := S128x10240) S64x10240.size (cc0_transform_2 i) (hinb0_2 i)).WholeWords (EltTy.packing .f32)

variable [Facts₀]

def gather_S10000x128_S128x1_S128x128_1_0_n_n_0_1_1128 : GatherDims S10000x128 S128x1 S128x128 where
  offsetDims := [1]
  collapsedSliceDims := [0]
  operandBatchingDims := []
  startIndicesBatchingDims := []
  startIndexMap := [0]
  indexVectorDim := 1
  sliceSizes := ![1, 128]
  wf := gather_S10000x128_S128x1_S128x128_1_0_n_n_0_1_1128_wf
def gather_S500x128_S128x1_S128x128_1_0_n_n_0_1_1128 : GatherDims S500x128 S128x1 S128x128 where
  offsetDims := [1]
  collapsedSliceDims := [0]
  operandBatchingDims := []
  startIndicesBatchingDims := []
  startIndexMap := [0]
  indexVectorDim := 1
  sliceSizes := ![1, 128]
  wf := gather_S500x128_S128x1_S128x128_1_0_n_n_0_1_1128_wf

abbrev win0_0 : Pipeline.Window sig grid0 :=
  Pipeline.Window.ofSpec (Memref.whole main_v18) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x10240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S64x10240.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S500x128 : Shape := ⟨2, ![500, 128]⟩
abbrev S128 : Shape := ⟨1, ![128]⟩
abbrev S_ : Shape := ⟨0, ![]⟩
abbrev S128x1 : Shape := ⟨2, ![128, 1]⟩
abbrev S128x128 : Shape := ⟨2, ![128, 128]⟩
abbrev S10000 : Shape := ⟨1, ![10000]⟩
abbrev S10000x1 : Shape := ⟨2, ![10000, 1]⟩
abbrev S128x1x128 : Shape := ⟨3, ![128, 1, 128]⟩
abbrev S1x10000x128 : Shape := ⟨3, ![1, 10000, 128]⟩
abbrev S128x10000x128 : Shape := ⟨3, ![128, 10000, 128]⟩
abbrev S128x10000 : Shape := ⟨2, ![128, 10000]⟩

abbrev nBuf : Space → Nat
  | .hbm => 75
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S500x128, .f32⟩
  | .hbm, ⟨2, _⟩ => ⟨S128, .i32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x128, .f32⟩
  | .hbm, ⟨22, _⟩ => ⟨S128x128, .f32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x128, .f32⟩
  | .hbm, ⟨41, _⟩ => ⟨S128x128, .f32⟩
  | .hbm, ⟨42, _⟩ => ⟨S10000x128, .f32⟩
  | .hbm, ⟨43, _⟩ => ⟨S_, .f32⟩
  | .hbm, ⟨44, _⟩ => ⟨S10000, .f32⟩
  | .hbm, ⟨45, _⟩ => ⟨S10000x1, .f32⟩
  | .hbm, ⟨46, _⟩ => ⟨S10000x1, .f32⟩
  | .hbm, ⟨47, _⟩ => ⟨S_, .f32⟩
  | .hbm, ⟨48, _⟩ => ⟨S10000x1, .f32⟩
  | .hbm, ⟨49, _⟩ => ⟨S10000x1, .f32⟩
  | .hbm, ⟨50, _⟩ => ⟨S10000x128, .f32⟩
  | .hbm, ⟨51, _⟩ => ⟨S10000x128, .f32⟩
  | .hbm, ⟨52, _⟩ => ⟨S128x128, .f32⟩
  | .hbm, ⟨53, _⟩ => ⟨S128x1x128, .f32⟩
  | .hbm, ⟨54, _⟩ => ⟨S1x10000x128, .f32⟩
  | .hbm, ⟨55, _⟩ => ⟨S128x10000x128, .f32⟩
  | .hbm, ⟨56, _⟩ => ⟨S128x10000x128, .f32⟩
  | .hbm, ⟨57, _⟩ => ⟨S128x10000x128, .f32⟩
  | .hbm, ⟨58, _⟩ => ⟨S128x10000x128, .f32⟩
  | .hbm, ⟨59, _⟩ => ⟨S_, .f32⟩
  | .hbm, ⟨60, _⟩ => ⟨S128x10000, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128x1, .f32⟩
  | .hbm, ⟨67, _⟩ => ⟨S128x10000, .f32⟩
  | .hbm, ⟨68, _⟩ => ⟨S128x10000, .f32⟩
  | .hbm, ⟨69, _⟩ => ⟨S128x10000, .f32⟩
  | .hbm, ⟨70, _⟩ => ⟨S_, .f32⟩
  | .hbm, ⟨71, _⟩ => ⟨S128, .f32⟩
  | .hbm, ⟨72, _⟩ => ⟨S128x1, .f32⟩
  | .hbm, ⟨73, _⟩ => ⟨S128x10000, .f32⟩
  | .hbm, ⟨74, _⟩ => ⟨S128x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  reducesTo_S128x128_S128_d1 : S128x128.ReducesTo [1] S128
  h_S_ : 0 < S_.numel
  bcast_S_S128x1 : S_.BroadcastsInDim S128x1 (![] : Fin 0 → Fin S128x1.rank)
  bcast_S128x1_S128x128_0_1 : S128x1.BroadcastsInDim S128x128 (![0, 1] : Fin 2 → Fin S128x128.rank)
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128x128_S128x1x128_0_2 : S128x128.BroadcastsInDim S128x1x128 (![0, 2] : Fin 2 → Fin S128x1x128.rank)
  bcast_S10000x128_S1x10000x128_1_2 : S10000x128.BroadcastsInDim S1x10000x128 (![1, 2] : Fin 2 → Fin S1x10000x128.rank)
  bcast_S128x1x128_S128x10000x128_0_1_2 : S128x1x128.BroadcastsInDim S128x10000x128 (![0, 1, 2] : Fin 3 → Fin S128x10000x128.rank)
  bcast_S1x10000x128_S128x10000x128_0_1_2 : S1x10000x128.BroadcastsInDim S128x10000x128 (![0, 1, 2] : Fin 3 → Fin S128x10000x128.rank)
  reducesTo_S128x10000x128_S128x10000_d2 : S128x10000x128.ReducesTo [2] S128x10000
  reducesTo_S128x10000_S128_d1 : S128x10000.ReducesTo [1] S128
  bcast_S128x1_S128x10000_0_1 : S128x1.BroadcastsInDim S128x10000 (![0, 1] : Fin 2 → Fin S128x10000.rank)
  gather_S10000x128_S128x1_S128x128_1_0_n_n_0_1_1128_wf : GatherDims.WF S10000x128 S128x1 S128x128 [1] [0] [] [0] [] 1 ![1, 128]
  gather_S500x128_S128x1_S128x128_1_0_n_n_0_1_1128_wf : GatherDims.WF S500x128 S128x1 S128x128 [1] [0] [] [0] [] 1 ![1, 128]

variable [Facts₀]

def gather_S10000x128_S128x1_S128x128_1_0_n_n_0_1_1128 : GatherDims S10000x128 S128x1 S128x128 where
  offsetDims := [1]
  collapsedSliceDims := [0]
  operandBatchingDims := []
  startIndicesBatchingDims := []
  startIndexMap := [0]
  indexVectorDim := 1
  sliceSizes := ![1, 128]
  wf := gather_S10000x128_S128x1_S128x128_1_0_n_n_0_1_1128_wf
def gather_S500x128_S128x1_S128x128_1_0_n_n_0_1_1128 : GatherDims S500x128 S128x1 S128x128 where
  offsetDims := [1]
  collapsedSliceDims := [0]
  operandBatchingDims := []
  startIndicesBatchingDims := []
  startIndexMap := [0]
  indexVectorDim := 1
  sliceSizes := ![1, 128]
  wf := gather_S500x128_S128x1_S128x128_1_0_n_n_0_1_1128_wf

class Facts : Prop extends Facts₀ where

variable [Facts]
-- ==== Proof.KernelLoop.lean ====
/-
  What the kernel body's loop over the 20 chunks of 512 entities leaves in the output tile.

  Trip `k` stores ONE piece: at columns [512 k, 512 k + 512) of the [64, 10240] tile, the body's
  distance payload of the query tile and of chunk `k` of the entity table. The 20 pieces tile the
  whole tile, so what a load of the whole tile reads after the loop does not depend on what the
  tile held before it.
-/
import proofs.«408745_j23021024706783_2_alg».proof.Proof.Gen.Kernel.Loops
import Idealize.ShloMosaic.Lib.HeldBySlice
import Idealize.ShloMosaic.Lib.ValueIdx

set_option maxRecDepth 16384

noncomputable section

namespace Cert.Kernel.GenP

open Idealize.ShloMosaic Idealize.ShloMosaic.TcCoe Idealize.ShloMosaic.ValueIdx
open Idealize.SL Idealize.SL.Sem
open Cert.Kernel Cert.Kernel.Gen

variable {F : FTy → Type} [FloatOps F]

/-- The loop runs 20 trips. -/
theorem trips_eq : k0_t1_loop.trips = 20 := by decide

/-- The piece trip `k` stores: the distance payload of the query tile and of chunk `k` of the entity table, at the
    chunk's columns. -/
def chunkPiece (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) : View.Piece (Elt F) S64x10240 .f32 :=
  ⟨Rect.unit (s := S64x10240) (k0_off2 k) S64x512.size (k0_off2_inb k),
    k0_pay1 v0 (View.readAt (Elt F) arg2.view (Rect.unit (s := S128x10240) (k0_off1 k) S128x512.size (k0_off1_inb k)).toLoadRect X)⟩

/-- One trip stores exactly that piece. -/
theorem tripL_eq (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) :
    tripL_k0_t1 (F := F) 𝒱 c bd i arg1 harg1 arg2 harg2 arg3 harg3 v0 X k = [chunkPiece 𝒱 c bd i arg1 harg1 arg2 harg2 arg3 harg3 v0 X k] := by
  unfold tripL_k0_t1 trip_k0_t1 chunkPiece
  rfl

/-- Every piece of the trips before `n` is some trip's piece. -/
theorem pb_pieces (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) : ∀ (n : ℕ), n ≤ k0_t1_loop.trips →
    ∀ p ∈ pb_k0_t1 (F := F) 𝒱 c bd i arg1 harg1 arg2 harg2 arg3 harg3 v0 X n, ∃ k : Fin k0_t1_loop.trips, p = chunkPiece 𝒱 c bd i arg1 harg1 arg2 harg2 arg3 harg3 v0 X k
  | 0, _, p, hp => by rw [pb_k0_t1.eq_1] at hp; exact absurd hp List.not_mem_nil
  | n + 1, hn, p, hp => by
    have e := pb_k0_t1_succ (F := F) 𝒱 c bd i arg1 harg1 arg2 harg2 arg3 harg3 v0 X ⟨n, hn⟩
    rw [show (⟨n, hn⟩ : Fin k0_t1_loop.trips).val + 1 = n + 1 from rfl, tripL_eq] at e
    rw [e] at hp
    rcases List.mem_append.mp hp with h | h
    · exact ⟨⟨n, hn⟩, List.mem_singleton.mp h⟩
    · exact pb_pieces 𝒱 c bd i arg1 harg1 arg2 harg2 arg3 harg3 v0 X n (Nat.le_of_succ_le hn) p h

/-- Trip `k`'s piece is among the pieces of the trips before `n`, for `k < n`. -/
theorem mem_pb (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) : ∀ (n : ℕ), n ≤ k0_t1_loop.trips → k.val < n →
    chunkPiece 𝒱 c bd i arg1 harg1 arg2 harg2 arg3 harg3 v0 X k ∈ pb_k0_t1 (F := F) 𝒱 c bd i arg1 harg1 arg2 harg2 arg3 harg3 v0 X n
  | 0, _, hk => absurd hk (Nat.not_lt_zero _)
  | n + 1, hn, hk => by
    have e := pb_k0_t1_succ (F := F) 𝒱 c bd i arg1 harg1 arg2 harg2 arg3 harg3 v0 X ⟨n, hn⟩
    rw [show (⟨n, hn⟩ : Fin k0_t1_loop.trips).val + 1 = n + 1 from rfl, tripL_eq] at e
    rw [e]
    by_cases h : k.val = n
    · exact List.mem_append_left _ (by rw [show k = ⟨n, hn⟩ from Fin.ext h]; exact List.mem_singleton.mpr rfl)
    · exact List.mem_append_right _ (mem_pb 𝒱 c bd i arg1 harg1 arg2 harg2 arg3 harg3 v0 X k n (Nat.le_of_succ_le hn) (by omega))

/-- The 20 pieces cover the tile: column `j` lies in chunk `j / 512`. -/
theorem cover_pb (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (y : S64x10240.Idx) :
    ∃ p ∈ pb_k0_t1 (F := F) 𝒱 c bd i arg1 harg1 arg2 harg2 arg3 harg3 v0 X k0_t1_loop.trips, y ∈ p.1.set := by
  have h0 : (y 0).val < 64 := idx2_lt0 y
  have h1 : (y 1).val < 10240 := idx2_lt1 y
  have hk : (y 1).val / 512 < k0_t1_loop.trips := by rw [trips_eq]; omega
  refine ⟨chunkPiece 𝒱 c bd i arg1 harg1 arg2 harg2 arg3 harg3 v0 X ⟨(y 1).val / 512, hk⟩, mem_pb 𝒱 c bd i arg1 harg1 arg2 harg2 arg3 harg3 v0 X _ _ le_rfl hk, ?_⟩
  show y ∈ (Rect.unit (s := S64x10240) (k0_off2 ⟨(y 1).val / 512, hk⟩) S64x512.size (k0_off2_inb _)).set
  rw [Rect.mem_set_unit, k0_off2_eq]
  refine Fin.forall_fin_two.mpr ⟨?_, ?_⟩
  · show (0 : ℕ) ≤ (y 0).val ∧ (y 0).val < 0 + 64
    omega
  · show 512 * ((y 1).val / 512) ≤ (y 1).val ∧ (y 1).val < 512 * ((y 1).val / 512) + 512
    omega

/-- So a load of the whole tile after the loop reads the same whatever the tile held before the loop. -/
theorem loaded_after_loop (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (B : LoadRect S64x10240) (f f' : BufTy.Contents (Elt F) arg3.view.ty) :
    View.readAt (Elt F) arg3.view B (arg3.view.writes (Elt F) f (pb_k0_t1 (F := F) 𝒱 c bd i arg1 harg1 arg2 harg2 arg3 harg3 v0 X k0_t1_loop.trips))
      = View.readAt (Elt F) arg3.view B (arg3.view.writes (Elt F) f' (pb_k0_t1 (F := F) 𝒱 c bd i arg1 harg1 arg2 harg2 arg3 harg3 v0 X k0_t1_loop.trips)) :=
  View.readAt_writes_eq_of_cover arg3.view f f' _ B (fun j => cover_pb 𝒱 c bd i arg1 harg1 arg2 harg2 arg3 harg3 v0 X (B.idx j))

end Cert.Kernel.GenP

end
-- ==== Proof.KernelIdealLoop.lean ====
/-
  What the kernel body's loop over the 20 chunks of 512 entities leaves in the output tile.

  Trip `k` stores ONE piece: at columns [512 k, 512 k + 512) of the [64, 10240] tile, the body's
  distance payload of the query tile and of chunk `k` of the entity table. The 20 pieces tile the
  whole tile, so what a load of the whole tile reads after the loop does not depend on what the
  tile held before it.
-/
import proofs.«408745_j23021024706783_2_alg».proof.Proof.Gen.KernelIdeal.Loops
import Idealize.ShloMosaic.Lib.HeldBySlice
import Idealize.ShloMosaic.Lib.ValueIdx

set_option maxRecDepth 16384

noncomputable section

namespace Cert.KernelIdeal.GenP

open Idealize.ShloMosaic Idealize.ShloMosaic.TcCoe Idealize.ShloMosaic.ValueIdx
open Idealize.SL Idealize.SL.Sem
open Cert.KernelIdeal Cert.KernelIdeal.Gen

variable {F : FTy → Type} [FloatOps F] [Named F]

/-- The loop runs 20 trips. -/
theorem trips_eq : k0_t1_loop.trips = 20 := by decide

/-- The piece trip `k` stores: the distance payload of the query tile and of chunk `k` of the entity table, at the
    chunk's columns. -/
def chunkPiece (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) : View.Piece (Elt F) S64x10240 .f32 :=
  ⟨Rect.unit (s := S64x10240) (k0_off2 k) S64x512.size (k0_off2_inb k),
    k0_pay1 v0 (View.readAt (Elt F) arg2.view (Rect.unit (s := S128x10240) (k0_off1 k) S128x512.size (k0_off1_inb k)).toLoadRect X)⟩

/-- One trip stores exactly that piece. -/
theorem tripL_eq (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) :
    tripL_k0_t1 (F := F) 𝒱 c bd i arg1 harg1 arg2 harg2 arg3 harg3 v0 X k = [chunkPiece 𝒱 c bd i arg1 harg1 arg2 harg2 arg3 harg3 v0 X k] := by
  unfold tripL_k0_t1 trip_k0_t1 chunkPiece
  rfl

/-- Every piece of the trips before `n` is some trip's piece. -/
theorem pb_pieces (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) : ∀ (n : ℕ), n ≤ k0_t1_loop.trips →
    ∀ p ∈ pb_k0_t1 (F := F) 𝒱 c bd i arg1 harg1 arg2 harg2 arg3 harg3 v0 X n, ∃ k : Fin k0_t1_loop.trips, p = chunkPiece 𝒱 c bd i arg1 harg1 arg2 harg2 arg3 harg3 v0 X k
  | 0, _, p, hp => by rw [pb_k0_t1.eq_1] at hp; exact absurd hp List.not_mem_nil
  | n + 1, hn, p, hp => by
    have e := pb_k0_t1_succ (F := F) 𝒱 c bd i arg1 harg1 arg2 harg2 arg3 harg3 v0 X ⟨n, hn⟩
    rw [show (⟨n, hn⟩ : Fin k0_t1_loop.trips).val + 1 = n + 1 from rfl, tripL_eq] at e
    rw [e] at hp
    rcases List.mem_append.mp hp with h | h
    · exact ⟨⟨n, hn⟩, List.mem_singleton.mp h⟩
    · exact pb_pieces 𝒱 c bd i arg1 harg1 arg2 harg2 arg3 harg3 v0 X n (Nat.le_of_succ_le hn) p h

/-- Trip `k`'s piece is among the pieces of the trips before `n`, for `k < n`. -/
theorem mem_pb (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (k : Fin k0_t1_loop.trips) : ∀ (n : ℕ), n ≤ k0_t1_loop.trips → k.val < n →
    chunkPiece 𝒱 c bd i arg1 harg1 arg2 harg2 arg3 harg3 v0 X k ∈ pb_k0_t1 (F := F) 𝒱 c bd i arg1 harg1 arg2 harg2 arg3 harg3 v0 X n
  | 0, _, hk => absurd hk (Nat.not_lt_zero _)
  | n + 1, hn, hk => by
    have e := pb_k0_t1_succ (F := F) 𝒱 c bd i arg1 harg1 arg2 harg2 arg3 harg3 v0 X ⟨n, hn⟩
    rw [show (⟨n, hn⟩ : Fin k0_t1_loop.trips).val + 1 = n + 1 from rfl, tripL_eq] at e
    rw [e]
    by_cases h : k.val = n
    · exact List.mem_append_left _ (by rw [show k = ⟨n, hn⟩ from Fin.ext h]; exact List.mem_singleton.mpr rfl)
    · exact List.mem_append_right _ (mem_pb 𝒱 c bd i arg1 harg1 arg2 harg2 arg3 harg3 v0 X k n (Nat.le_of_succ_le hn) (by omega))

/-- The 20 pieces cover the tile: column `j` lies in chunk `j / 512`. -/
theorem cover_pb (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (y : S64x10240.Idx) :
    ∃ p ∈ pb_k0_t1 (F := F) 𝒱 c bd i arg1 harg1 arg2 harg2 arg3 harg3 v0 X k0_t1_loop.trips, y ∈ p.1.set := by
  have h0 : (y 0).val < 64 := idx2_lt0 y
  have h1 : (y 1).val < 10240 := idx2_lt1 y
  have hk : (y 1).val / 512 < k0_t1_loop.trips := by rw [trips_eq]; omega
  refine ⟨chunkPiece 𝒱 c bd i arg1 harg1 arg2 harg2 arg3 harg3 v0 X ⟨(y 1).val / 512, hk⟩, mem_pb 𝒱 c bd i arg1 harg1 arg2 harg2 arg3 harg3 v0 X _ _ le_rfl hk, ?_⟩
  show y ∈ (Rect.unit (s := S64x10240) (k0_off2 ⟨(y 1).val / 512, hk⟩) S64x512.size (k0_off2_inb _)).set
  rw [Rect.mem_set_unit, k0_off2_eq]
  refine Fin.forall_fin_two.mpr ⟨?_, ?_⟩
  · show (0 : ℕ) ≤ (y 0).val ∧ (y 0).val < 0 + 64
    omega
  · show 512 * ((y 1).val / 512) ≤ (y 1).val ∧ (y 1).val < 512 * ((y 1).val / 512) + 512
    omega

/-- So a load of the whole tile after the loop reads the same whatever the tile held before the loop. -/
theorem loaded_after_loop (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole) (v0 : Vec F S64x128 .f32) (X : BufTy.Contents (Elt F) arg2.view.ty) (B : LoadRect S64x10240) (f f' : BufTy.Contents (Elt F) arg3.view.ty) :
    View.readAt (Elt F) arg3.view B (arg3.view.writes (Elt F) f (pb_k0_t1 (F := F) 𝒱 c bd i arg1 harg1 arg2 harg2 arg3 harg3 v0 X k0_t1_loop.trips))
      = View.readAt (Elt F) arg3.view B (arg3.view.writes (Elt F) f' (pb_k0_t1 (F := F) 𝒱 c bd i arg1 harg1 arg2 harg2 arg3 harg3 v0 X k0_t1_loop.trips)) :=
  View.readAt_writes_eq_of_cover arg3.view f f' _ B (fun j => cover_pb 𝒱 c bd i arg1 harg1 arg2 harg2 arg3 harg3 v0 X (B.idx j))

end Cert.KernelIdeal.GenP

end
-- ==== Proof.Spec.lean ====
/-
  The mathematics both programs compute, on the extended reals.

  For queries `Q` (128 rows of 128 features) and entities `E` (10000 rows of 128 features) the result at
  (l, n) is the softmax, over the 10000 entities, of the Manhattan distance
  `dist l n = ∑ h, |Q l h - E n h|`: `exp (dist l n - top l) / ∑ n', exp (dist l n' - top l)` with
  `top l` the largest distance of row `l`.

  One program works on rows PADDED from 10000 to 10240 entries whose extra entries are `-∞` (`⊥`): the
  largest entry is unchanged (`⊥` is the least element) and every extra entry adds `exp ⊥ = 0` to the
  denominator, so the padded row's softmax restricted to the first 10000 entries is the row's own
  (`rowSoft_pad`). No finiteness is needed: `⊥ - x = ⊥` for every extended real `x`.
-/
import Idealize.ShloMosaic.PureOps.Ideal
import Idealize.ShloMosaic.Lib.ValueIdx

noncomputable section

open scoped BigOperators

namespace Cert.Spec

open Idealize.ShloMosaic Idealize.ShloMosaic.ValueIdx

/-- The largest entry of a row (the fold of `max` from `-∞`). -/
def rowTop {N : ℕ} (v : Fin N → EReal) : EReal := (Finset.univ : Finset (Fin N)).fold max ⊥ v

/-- The softmax of a row of extended reals at entry `n`. -/
def rowSoft {N : ℕ} (v : Fin N → EReal) (n : Fin N) : EReal :=
  Ideal.div (Ideal.exp (v n - rowTop v)) (∑ j : Fin N, Ideal.exp (v j - rowTop v))

/-- A row of 10000 entries continued by 240 entries `-∞`. -/
def padRow (d : Fin 10000 → EReal) : Fin 10240 → EReal :=
  fun j => if h : j.val < 10000 then d ⟨j.val, h⟩ else ⊥

theorem padRow_castAdd (d : Fin 10000 → EReal) (n : Fin 10000) : padRow d (Fin.castAdd 240 n) = d n := by
  unfold padRow
  rw [dif_pos (show (Fin.castAdd 240 n).val < 10000 from n.isLt)]
  exact congrArg d (Fin.ext rfl)

theorem padRow_natAdd (d : Fin 10000 → EReal) (k : Fin 240) : padRow d (Fin.natAdd 10000 k) = ⊥ := by
  unfold padRow
  rw [dif_neg (show ¬ (Fin.natAdd 10000 k).val < 10000 by simp [Fin.natAdd])]

/-- Padding with `-∞` does not change the largest entry. -/
theorem rowTop_pad (d : Fin 10000 → EReal) : rowTop (padRow d) = rowTop d := by
  unfold rowTop
  apply le_antisymm
  · rw [Finset.fold_max_le]
    refine ⟨bot_le, fun j _ => ?_⟩
    unfold padRow
    by_cases h : j.val < 10000
    · rw [dif_pos h]; exact (Finset.le_fold_max _).mpr (Or.inr ⟨⟨j.val, h⟩, Finset.mem_univ _, le_rfl⟩)
    · rw [dif_neg h]; exact bot_le
  · rw [Finset.fold_max_le]
    refine ⟨bot_le, fun n _ => ?_⟩
    exact (Finset.le_fold_max _).mpr (Or.inr ⟨Fin.castAdd 240 n, Finset.mem_univ _, by rw [padRow_castAdd]⟩)

/-- Each padding entry contributes `exp (-∞) = 0` to the sum of exponentials. -/
theorem sumExp_pad (d : Fin 10000 → EReal) (M : EReal) :
    ∑ j : Fin 10240, Ideal.exp (padRow d j - M) = ∑ n : Fin 10000, Ideal.exp (d n - M) := by
  refine (Fin.sum_univ_add (fun j : Fin (10000 + 240) => Ideal.exp (padRow d j - M))).trans ?_
  simp only [padRow_castAdd, padRow_natAdd, EReal.bot_sub, Ideal.exp_bot, Finset.sum_const_zero, add_zero]

/-- The softmax of the padded row, at one of the first 10000 entries, is the row's own. -/
theorem rowSoft_pad (d : Fin 10000 → EReal) (n : Fin 10000) :
    rowSoft (padRow d) (Fin.castAdd 240 n) = rowSoft d n := by
  unfold rowSoft
  rw [rowTop_pad, sumExp_pad, padRow_castAdd]

/-- The Manhattan distance between query `l` and entity `n` (`|a|` spelt `max a (-a)`, as the float model has it). -/
def dist (Q : (⟨2, ![128, 128]⟩ : Shape).Idx → EReal) (E : (⟨2, ![10000, 128]⟩ : Shape).Idx → EReal)
    (l : Fin 128) (n : Fin 10000) : EReal :=
  ∑ h : Fin 128, max (Q (ix2 l h) - E (ix2 n h)) (-(Q (ix2 l h) - E (ix2 n h)))

/-- The result: row `l` is the softmax of query `l`'s distances to the 10000 entities. -/
def G (Q : (⟨2, ![128, 128]⟩ : Shape).Idx → EReal) (E : (⟨2, ![10000, 128]⟩ : Shape).Idx → EReal) :
    (⟨2, ![128, 10000]⟩ : Shape).Idx → EReal :=
  fun i => rowSoft (dist Q E (i 0)) (i 1)

theorem G_apply (Q : (⟨2, ![128, 128]⟩ : Shape).Idx → EReal) (E : (⟨2, ![10000, 128]⟩ : Shape).Idx → EReal)
    (l : Fin 128) (n : Fin 10000) : G Q E (ix2 l n) = rowSoft (dist Q E l) n := rfl

end Cert.Spec

end
-- ==== Proof.KernelPayload.lean ====
/-
  The kernel body's two stored values, read at an index, on the extended reals.

  The first is the Manhattan distance of a query row to one entity of a chunk: the query tile [64,128] is viewed
  [64,128,1] and repeated along a third axis, the entity chunk [128,512] is viewed [1,128,512] and repeated along the
  first, the two are subtracted, the absolute value is taken (`max a (-a)`), and the 128 features are summed. At
  (r, j) that is `∑ h, |q r h - e h j|`.

  The second is a row softmax over 10240 columns of which only the first 10000 carry data: the columns from 10000 on
  are replaced by a constant the certificate's table names -∞, the row's largest entry is subtracted, the exponential is
  taken and the result divided by the row's sum. At (r, j) that is `Cert.Spec.rowSoft` of the masked row.

  Each layout operation is read at an index by its row-major position (a cast) or by its trailing coordinates (a
  repetition); each reduction over one axis is a finite sum or a fold of `max` over that axis's coordinates, the other
  coordinates kept.
-/
import proofs.«408745_j23021024706783_2_alg».proof.Proof.Gen.KernelIdeal.Skeleton
import proofs.«408745_j23021024706783_2_alg».proof.Proof.Spec
import Idealize.ShloMosaic.PureOps.Ideal.Laws
import Idealize.ShloMosaic.PureOps.IdealRules
import Idealize.ShloMosaic.Lib.Pipeline.Value
import Idealize.ShloMosaic.Lib.ValueIdx
import Idealize.ShloMosaic.Lib.StableHlo.Predicate

noncomputable section

open scoped BigOperators

namespace Cert.KernelIdeal.Payload

open Idealize.ShloMosaic Idealize.ShloMosaic.ValueIdx Cert.KernelIdeal Cert.KernelIdeal.Gen

/-- The certificate's table names the literal -2.38e38 as -∞. -/
theorem neg_big : Named.named (F := Ideal) Cert.KernelIdeal.κ "neg_big" (φ := .f32) 0xFF333332#32 = (⊥ : EReal) :=
  IdealRules.named_const.ideal_named_scalar _ _ _ _ rfl

/-- The sum over the middle axis of a [64,128,512] block, read at (r, j): the sum over the 128 features
    of the block at (r, h, j). -/
theorem sumMid_apply (x : FVec Ideal S64x128x512 .f32)
    (hφ : FKind.Formats .f32) (hacc : (0x00000000#32 : BitVec 32) = FKind.add.neutral .f32 hφ) (r : Fin 64) (j : Fin 512) :
    multiReduction (F := Ideal) .add [1] S64x512 x 0x00000000#32 reduces_S64x128x512_S64x512 hφ hacc (ix2 r j)
      = ∑ h : Fin 128, x (ix3 r h j) := by
  refine (Ideal.multiReduction_add_single x 0x00000000#32 reduces_S64x128x512_S64x512 hφ hacc (ix2 r j)).trans ?_
  refine Finset.sum_congr rfl fun h _ => congrArg x ?_
  funext c
  match c with
  | ⟨0, _⟩ => exact Fin.ext rfl
  | ⟨1, _⟩ => exact Fin.ext rfl
  | ⟨2, _⟩ => exact Fin.ext rfl

/-- The query tile, viewed [64,128,1] and repeated along the last axis, read at (r, h, j): the tile at (r, h). -/
theorem query_apply (v0 : FVec Ideal S64x128 .f32) (r : Fin 64) (h : Fin 128) (j : Fin 512) :
    broadcastTo S64x128x512 (shapeCast S64x128x1 (shapeCast S64x128 v0 shapeCasts_S64x128_S64x128) shapeCasts_S64x128_S64x128x1)
      broadcasts_S64x128x1_S64x128x512 (ix3 r h j) = v0 (ix2 r h) := by
  refine (broadcastTo_apply _ broadcasts_S64x128x1_S64x128x512 (ix3 r h j) (ix3 r h (0 : Fin 1)) ?_).trans ?_
  · intro a
    match a with
    | ⟨0, _⟩ => rfl
    | ⟨1, _⟩ => rfl
    | ⟨2, _⟩ => rfl
  · refine (shapeCast_apply _ shapeCasts_S64x128_S64x128x1 (ix3 r h (0 : Fin 1)) (ix2 r h) ?_).trans ?_
    · rw [Shape.rowMajor_val_two, Shape.rowMajor_val_three]
      show r.val * 128 + h.val = (r.val * 128 + h.val) * 1 + 0
      omega
    · rw [shapeCast_self]

/-- The entity chunk, viewed [1,128,512] and repeated along the first axis, read at (r, h, j): the chunk at (h, j). -/
theorem entity_apply (v26 : FVec Ideal S128x512 .f32) (r : Fin 64) (h : Fin 128) (j : Fin 512) :
    broadcastTo S64x128x512 (shapeCast S1x128x512 (shapeCast S128x512 v26 shapeCasts_S128x512_S128x512) shapeCasts_S128x512_S1x128x512)
      broadcasts_S1x128x512_S64x128x512 (ix3 r h j) = v26 (ix2 h j) := by
  refine (broadcastTo_apply _ broadcasts_S1x128x512_S64x128x512 (ix3 r h j) (ix3 (0 : Fin 1) h j) ?_).trans ?_
  · intro a
    match a with
    | ⟨0, _⟩ => rfl
    | ⟨1, _⟩ => rfl
    | ⟨2, _⟩ => rfl
  · refine (shapeCast_apply _ shapeCasts_S128x512_S1x128x512 (ix3 (0 : Fin 1) h j) (ix2 h j) ?_).trans ?_
    · rw [Shape.rowMajor_val_two, Shape.rowMajor_val_three]
      show h.val * 512 + j.val = (0 * 128 + h.val) * 512 + j.val
      omega
    · rw [shapeCast_self]

/-- The first stored value: the Manhattan distance between query row r and the chunk's entity j. -/
theorem pay1_apply (v0 : Vec Ideal S64x128 .f32) (v26 : Vec Ideal S128x512 .f32) (r : Fin 64) (j : Fin 512) :
    k0_pay1 (F := Ideal) v0 v26 (ix2 r j)
      = ∑ h : Fin 128, max (v0 (ix2 r h) - v26 (ix2 h j)) (-(v0 (ix2 r h) - v26 (ix2 h j))) := by
  unfold k0_pay1
  refine (sumMid_apply _ _ _ r j).trans ?_
  refine Finset.sum_congr rfl fun h _ => ?_
  show max (_ - _) (-(_ - _)) = _
  rw [query_apply, entity_apply]

/-- The bit pattern of the row maximum's starting value denotes -∞. -/
theorem negInf_bits : Ideal.ofBits .f32 0xFF800000#32 = (⊥ : EReal) := by
  simp [Ideal.ofBits, Ideal.ieee]

/-- The tile with its columns from 10000 on replaced by the named constant, read at (r, j). -/
theorem masked_apply (v4 : FVec Ideal S64x10240 .f32) (r : Fin 64) (j : Fin 10240) :
    select (cmpi .slt (iota .tc S64x10240 32 [1] iota_S64x10240_d1_w32) (broadcast S64x10240 10000#32))
        (shapeCast S64x10240 v4 shapeCasts_S64x10240_S64x10240)
        (broadcast S64x10240 (Named.named (F := Ideal) κ "neg_big" (φ := .f32) 0xFF333332#32)) (ix2 r j)
      = if j.val < 10000 then v4 (ix2 r j) else (⊥ : EReal) := by
  show Scalar.select (IntOp.cmpi .slt (iota .tc S64x10240 32 [1] iota_S64x10240_d1_w32 (ix2 r j)) 10000#32)
        (shapeCast S64x10240 v4 shapeCasts_S64x10240_S64x10240 (ix2 r j))
        (Named.named (F := Ideal) κ "neg_big" (φ := .f32) 0xFF333332#32) = _
  rw [iota_single_apply, shapeCast_self, neg_big]
  show Scalar.select (IntOp.cmpi .slt (BitVec.ofNat 32 j.val) 10000#32) (v4 (ix2 r j)) (⊥ : EReal) = _
  have hj : (BitVec.ofNat 32 j.val).toNat = j.val := by
    rw [BitVec.toNat_ofNat]; exact Nat.mod_eq_of_lt (by have := j.isLt; omega)
  have hc : IntOp.cmpi .slt (BitVec.ofNat 32 j.val) 10000#32 = 1#1 ↔ j.val < 10000 := by
    refine (StableHlo.Predicate.slt_iff_toNat (by rw [hj]; have := j.isLt; omega) (by decide)).trans ?_
    rw [hj]; exact Iff.rfl
  by_cases h : j.val < 10000
  · rw [if_pos h, hc.mpr h, select_one]
  · rw [if_neg h, eq_zero_of_ne_one (fun e => h (hc.mp e)), select_zero]

/-- The row maximum of a [64,10240] tile, read at r: the largest entry of row r. -/
theorem rowMax_apply (x : FVec Ideal S64x10240 .f32)
    (hφ : FKind.Formats .f32) (hacc : (0xFF800000#32 : BitVec 32) = FKind.maximumf.neutral .f32 hφ) (r : Fin 64) :
    multiReduction (F := Ideal) .maximumf [1] S64 x 0xFF800000#32 reduces_S64x10240_S64 hφ hacc (ix1 r)
      = Cert.Spec.rowTop (fun j : Fin 10240 => x (ix2 r j)) := by
  refine (Ideal.multiReduction_maximumf_single x 0xFF800000#32 reduces_S64x10240_S64 hφ hacc (ix1 r)).trans ?_
  unfold Cert.Spec.rowTop
  rw [Ideal.ofBits_def, negInf_bits]
  refine congrArg (fun f => Finset.fold max (⊥ : EReal) f (Finset.univ : Finset (Fin 10240))) ?_
  funext j
  refine congrArg x ?_
  funext c
  match c with
  | ⟨0, _⟩ => exact Fin.ext rfl
  | ⟨1, _⟩ => exact Fin.ext rfl

/-- The row sum of a [64,10240] tile, read at r. -/
theorem rowSum_apply (x : FVec Ideal S64x10240 .f32)
    (hφ : FKind.Formats .f32) (hacc : (0x00000000#32 : BitVec 32) = FKind.add.neutral .f32 hφ) (r : Fin 64) :
    multiReduction (F := Ideal) .add [1] S64 x 0x00000000#32 reduces_S64x10240_S64 hφ hacc (ix1 r)
      = ∑ j : Fin 10240, x (ix2 r j) := by
  refine (Ideal.multiReduction_add_single x 0x00000000#32 reduces_S64x10240_S64 hφ hacc (ix1 r)).trans ?_
  refine Finset.sum_congr rfl fun j _ => congrArg x ?_
  funext c
  match c with
  | ⟨0, _⟩ => exact Fin.ext rfl
  | ⟨1, _⟩ => exact Fin.ext rfl

/-- A per-row value viewed as a column [64,1] and repeated along the row, read at (r, j): the value of row r. -/
theorem column_apply (w : FVec Ideal S64 .f32) (r : Fin 64) (j : Fin 10240) :
    broadcastTo S64x10240 (shapeCast S64x1 w shapeCasts_S64_S64x1) broadcasts_S64x1_S64x10240 (ix2 r j) = w (ix1 r) := by
  refine (broadcastTo_apply _ broadcasts_S64x1_S64x10240 (ix2 r j) (ix2 r (0 : Fin 1)) ?_).trans ?_
  · intro a
    match a with
    | ⟨0, _⟩ => rfl
    | ⟨1, _⟩ => rfl
  · refine shapeCast_apply _ shapeCasts_S64_S64x1 (ix2 r (0 : Fin 1)) (ix1 r) ?_
    rw [Shape.rowMajor_val_one, Shape.rowMajor_val_two]
    show r.val = r.val * 1 + 0
    omega

/-- Subtract each row's maximum, exponentiate, divide by the row's sum: the row's softmax, read at (r, j). -/
theorem softmax_apply (m : FVec Ideal S64x10240 .f32) (hφ : FKind.Formats .f32)
    (hmax : (0xFF800000#32 : BitVec 32) = FKind.maximumf.neutral .f32 hφ)
    (hadd : (0x00000000#32 : BitVec 32) = FKind.add.neutral .f32 hφ) (r : Fin 64) (j : Fin 10240) :
    divf
        (exp (subf m (broadcastTo S64x10240 (shapeCast S64x1
          (multiReduction (F := Ideal) .maximumf [1] S64 m 0xFF800000#32 reduces_S64x10240_S64 hφ hmax)
          shapeCasts_S64_S64x1) broadcasts_S64x1_S64x10240)))
        (broadcastTo S64x10240 (shapeCast S64x1
          (multiReduction (F := Ideal) .add [1] S64
            (exp (subf m (broadcastTo S64x10240 (shapeCast S64x1
              (multiReduction (F := Ideal) .maximumf [1] S64 m 0xFF800000#32 reduces_S64x10240_S64 hφ hmax)
              shapeCasts_S64_S64x1) broadcasts_S64x1_S64x10240)))
            0x00000000#32 reduces_S64x10240_S64 hφ hadd)
          shapeCasts_S64_S64x1) broadcasts_S64x1_S64x10240) (ix2 r j)
      = Cert.Spec.rowSoft (fun j' : Fin 10240 => m (ix2 r j')) j := by
  -- the shifted exponential at one entry of row r
  have hexp : ∀ j' : Fin 10240,
      exp (subf m (broadcastTo S64x10240 (shapeCast S64x1
          (multiReduction (F := Ideal) .maximumf [1] S64 m 0xFF800000#32 reduces_S64x10240_S64 hφ hmax)
          shapeCasts_S64_S64x1) broadcasts_S64x1_S64x10240)) (ix2 r j')
        = Ideal.exp (m (ix2 r j') - Cert.Spec.rowTop (fun j'' : Fin 10240 => m (ix2 r j''))) := by
    intro j'
    show Ideal.exp (m (ix2 r j') - _) = _
    rw [column_apply, rowMax_apply]
  show Ideal.div _ _ = _
  rw [hexp j, column_apply, rowSum_apply]
  unfold Cert.Spec.rowSoft
  exact congrArg (Ideal.div _) (Finset.sum_congr rfl fun j' _ => hexp j')

/-- The second stored value: the softmax, over the 10240 columns, of row r with the columns from 10000 on at -∞. -/
theorem pay2_apply (v4 : Vec Ideal S64x10240 .f32) (r : Fin 64) (j : Fin 10240) :
    k0_pay2 (F := Ideal) v4 (ix2 r j)
      = Cert.Spec.rowSoft (fun j' : Fin 10240 => if j'.val < 10000 then v4 (ix2 r j') else ⊥) j := by
  unfold k0_pay2
  refine (softmax_apply _ _ _ _ r j).trans ?_
  exact congrArg (fun v => Cert.Spec.rowSoft v j) (funext fun j' => masked_apply v4 r j')

end Cert.KernelIdeal.Payload
end
-- ==== Proof.KernelBody.lean ====
/-
  What the kernel program leaves in the pallas_call's output array, on the extended reals.

  The body runs once per tile of 64 queries. Its loop writes, chunk by chunk, the Manhattan distances of the 64
  queries to the 10240 columns of the (transposed, padded) entity table; the whole tile is then read back, the
  columns from 10000 on are masked to -∞, and each row is replaced by its softmax. So row `r` of the tile at
  grid point `t` is the softmax of the padded row of distances of query `64 t + r`.
-/
import proofs.«408745_j23021024706783_2_alg».proof.Proof.KernelIdealFrame
import proofs.«408745_j23021024706783_2_alg».proof.Proof.KernelPayload
import proofs.«408745_j23021024706783_2_alg».proof.Proof.Spec
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

/-- The tile of distances: entry (r, j) is the Manhattan distance between row `r` of the query tile and column `j` of
    the transposed entity table. -/
def distTile (x0 : S64x128.Idx → EReal) (x1 : S128x10240.Idx → EReal) : S64x10240.Idx → EReal :=
  fun y => ∑ h : Fin 128,
    max (x0 (ix2 (⟨(y 0).val, idx2_lt0 y⟩ : Fin 64) h) - x1 (ix2 h (⟨(y 1).val, idx2_lt1 y⟩ : Fin 10240)))
      (-(x0 (ix2 (⟨(y 0).val, idx2_lt0 y⟩ : Fin 64) h) - x1 (ix2 h (⟨(y 1).val, idx2_lt1 y⟩ : Fin 10240))))

theorem hz2 : (![0, 0] : Fin 2 → ℕ) = fun _ => 0 := by
  funext a; match a with | ⟨0, _⟩ => rfl | ⟨1, _⟩ => rfl

/-- Each piece the loop stores is the distance tile restricted to the chunk's columns. -/
theorem chunk_agrees (𝒱 : Variants) (c : Dev nD) (bd : Option 𝒱.V) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole)
    (x0 : Vec Ideal S64x128 .f32) (x1 : Vec Ideal S128x10240 .f32) (k : Fin k0_t1_loop.trips)
    (x : (chunkPiece (F := Ideal) 𝒱 c bd i arg1 harg1 arg2 harg2 arg3 harg3
        (View.readAt (Elt Ideal) arg1.view (Rect.unit (s := S64x128) ![0, 0] S64x128.size inb_S64x128_S64x128_0_0).toLoadRect (harg1.unread x0))
        (harg2.unread x1) k).1.shape.Idx) :
    (chunkPiece (F := Ideal) 𝒱 c bd i arg1 harg1 arg2 harg2 arg3 harg3
        (View.readAt (Elt Ideal) arg1.view (Rect.unit (s := S64x128) ![0, 0] S64x128.size inb_S64x128_S64x128_0_0).toLoadRect (harg1.unread x0))
        (harg2.unread x1) k).2 x
      = distTile x0 x1 ((chunkPiece (F := Ideal) 𝒱 c bd i arg1 harg1 arg2 harg2 arg3 harg3
        (View.readAt (Elt Ideal) arg1.view (Rect.unit (s := S64x128) ![0, 0] S64x128.size inb_S64x128_S64x128_0_0).toLoadRect (harg1.unread x0))
        (harg2.unread x1) k).1.emb x) := by
  unfold chunkPiece
  dsimp only
  obtain ⟨a, b, rfl⟩ : ∃ (a : Fin 64) (b : Fin 512), x = ix2 a b := ⟨x 0, x 1, eq_ix2 x⟩
  rw [View.readAt_eq_ld, View.readAt_eq_ld, harg1.read_unread, harg2.read_unread, View.ld_unit_zero hz2]
  refine (Cert.KernelIdeal.Payload.pay1_apply _ _ a b).trans ?_
  unfold distTile
  refine Finset.sum_congr rfl fun h _ => ?_
  have e1 : (View.ld x1 (Rect.unit (s := S128x10240) (k0_off1 k) S128x512.size (k0_off1_inb k)) : S128x512.Idx → EReal) (ix2 h b)
      = x1 (ix2 h (⟨(((Rect.unit (s := S64x10240) (k0_off2 k) S64x512.size (k0_off2_inb k)).emb (ix2 a b)) 1).val, idx2_lt1 _⟩ : Fin 10240)) := by
    show x1 _ = x1 _
    refine congrArg x1 (funext fun d => Fin.ext ?_)
    match d with
    | ⟨0, _⟩ => show (k0_off1 k) 0 + 1 * h.val = h.val; rw [k0_off1_eq]; show 0 + 1 * h.val = h.val; omega
    | ⟨1, _⟩ => show (k0_off1 k) 1 + 1 * b.val = (k0_off2 k) 1 + 1 * b.val; rw [k0_off1_eq, k0_off2_eq]
  have e0 : x0 (ix2 a h) = x0 (ix2 (⟨(((Rect.unit (s := S64x10240) (k0_off2 k) S64x512.size (k0_off2_inb k)).emb (ix2 a b)) 0).val, idx2_lt0 _⟩ : Fin 64) h) := by
    refine congrArg x0 (funext fun d => Fin.ext ?_)
    match d with
    | ⟨0, _⟩ => show a.val = (k0_off2 k) 0 + 1 * a.val; rw [k0_off2_eq]; show a.val = 0 + 1 * a.val; omega
    | ⟨1, _⟩ => rfl
  rw [e1, e0]

/-- After the loop the whole tile reads as the distance tile: the 20 pieces cover it and each agrees with it. -/
theorem loaded_tile (c : Dev nD) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole)
    (x0 : Vec Ideal S64x128 .f32) (x1 : Vec Ideal S128x10240 .f32) (f : BufTy.Contents (Elt Ideal) arg3.view.ty) :
    View.readAt (Elt Ideal) arg3.view (Rect.unit (s := S64x10240) ![0, 0] S64x10240.size inb_S64x10240_S64x10240_0_0).toLoadRect (arg3.view.writes (Elt Ideal) f (pb_k0_t1 (F := Ideal) Variants.none c none i arg1 harg1 arg2 harg2 arg3 harg3 (View.readAt (Elt Ideal) arg1.view (Rect.unit (s := S64x128) ![0, 0] S64x128.size inb_S64x128_S64x128_0_0).toLoadRect (harg1.unread x0)) (harg2.unread x1) k0_t1_loop.trips))
      = distTile x0 x1 := by
  rw [View.readAt_eq_ld, View.ld_unit_zero hz2]
  funext y
  refine View.read_writes_apply_of_pieces arg3.view f (distTile x0 x1) _ (fun p hp x => ?_) y
    (cover_pb Variants.none c none i arg1 harg1 arg2 harg2 arg3 harg3 _ _ y)
  obtain ⟨k, rfl⟩ := pb_pieces Variants.none c none i arg1 harg1 arg2 harg2 arg3 harg3 _ _ _ le_rfl p hp
  exact chunk_agrees Variants.none c none i arg1 harg1 arg2 harg2 arg3 harg3 x0 x1 k x

/-- What one run of the body leaves in the output tile: the row-wise softmax payload of the distance tile. -/
theorem out_eq (c : Dev nD) (i : grid0.Coords) (arg1 : Memref sig .tc .vmem S64x128 .f32) (harg1 : arg1.IsWhole) (arg2 : Memref sig .tc .vmem S128x10240 .f32) (harg2 : arg2.IsWhole) (arg3 : Memref sig .tc .vmem S64x10240 .f32) (harg3 : arg3.IsWhole)
    (x0 : Vec Ideal S64x128 .f32) (x1 : Vec Ideal S128x10240 .f32) :
    out0_A_2 (F := Ideal) c i arg1 harg1 arg2 harg2 arg3 harg3 x0 x1 = k0_pay2 (F := Ideal) (distTile x0 x1) := by
  unfold out0_A_2
  rw [View.read_writes_eq_canon _ _ _ (cover0_A_2 c i arg1 harg1 arg2 harg2 arg3 harg3 x0 x1)]
  unfold kernelRun0_A
  dsimp only
  unfold pieces0_A_2
  rw [View.canon_cons_unit_zero (S := S64x10240) hz2, loaded_tile]

end Cert.KernelIdeal.KValue

end
-- ==== Proof.KernelBlocks.lean ====
/-
  What each grid point writes back: the tile of 64 rows at point `t` is block `t` of ONE function of the query array and
  the transposed entity table as the call finds them — row `l` the softmax of the padded row of query `l`'s distances.
-/
import proofs.«408745_j23021024706783_2_alg».proof.Proof.KernelBody

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- The whole [128, 10240] output as one function of the query array and the transposed entity table: row `l` is the
    softmax of the padded row of query `l`'s distances (columns from 10000 on at -∞). -/
def padded (Qa : S128x128.Idx → EReal) (ET : S128x10240.Idx → EReal) : S128x10240.Idx → EReal :=
  fun i => Cert.Spec.rowSoft
    (fun j' : Fin 10240 => if j'.val < 10000 then
        ∑ h : Fin 128, max (Qa (ix2 (⟨(i 0).val, idx2_lt0 i⟩ : Fin 128) h) - ET (ix2 h j'))
          (-(Qa (ix2 (⟨(i 0).val, idx2_lt0 i⟩ : Fin 128) h) - ET (ix2 h j')))
      else ⊥)
    (⟨(i 1).val, idx2_lt1 i⟩ : Fin 10240)

/-- A masked row of the distance tile, when the tile's query rows are rows of `Qa` and its entity block is `ET`. -/
theorem tile_row (x0 : S64x128.Idx → EReal) (x1 : S128x10240.Idx → EReal) (Qa : S128x128.Idx → EReal)
    (ET : S128x10240.Idx → EReal) (r : Fin 64) (l : Fin 128)
    (h0 : ∀ h : Fin 128, x0 (ix2 r h) = Qa (ix2 l h)) (h1 : ∀ (h : Fin 128) (j : Fin 10240), x1 (ix2 h j) = ET (ix2 h j))
    (j' : Fin 10240) :
    (if j'.val < 10000 then distTile x0 x1 (ix2 r j') else ⊥)
      = (if j'.val < 10000 then ∑ h : Fin 128, max (Qa (ix2 l h) - ET (ix2 h j')) (-(Qa (ix2 l h) - ET (ix2 h j'))) else ⊥) := by
  by_cases hj : j'.val < 10000
  · rw [if_pos hj, if_pos hj]
    unfold distTile
    refine Finset.sum_congr rfl fun h _ => ?_
    show max (x0 (ix2 r h) - x1 (ix2 h j')) (-(x0 (ix2 r h) - x1 (ix2 h j'))) = _
    rw [h0 h, h1 h j']
  · rw [if_neg hj, if_neg hj]

/-- The two input blocks at a point and the two arrays they are blocks of, at their literal types. -/
abbrev qblk (c : Dev nD) (t : Fin cfg0.N) : S64x128.Idx → EReal := iblk m c 0 t
abbrev eblk (c : Dev nD) (t : Fin cfg0.N) : S128x10240.Idx → EReal := iblk m c 1 t
abbrev qarr (c : Dev nD) : S128x128.Idx → EReal := V m c main_v18
abbrev earr (c : Dev nD) : S128x10240.Idx → EReal := V m c main_v28

/-- The printed index maps over the two grid points: the query window moves with the output window along the rows,
    the entity window stays, and the output's row-block index is 0 or 1. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 1 :=
  (by decide +kernel : ∀ t : Fin grid0.N, _)

/-- Every row block of the output is some point's. -/
theorem idx_onto : ∀ q0 : Fin 2, ∃ t : Fin cfg0.N, win0_2.index t = ![q0.val, 0] :=
  (by decide +kernel : ∀ q0 : Fin 2, ∃ t : Fin grid0.N, win0_2.index t = ![q0.val, 0])

/-- The query window's block at point `t`: rows `64 · (row block) …` of the query array. -/
theorem qblk_apply (c : Dev nD) (t : Fin cfg0.N) (r : Fin 64) (h : Fin 128) (l : Fin 128)
    (hl : l.val = win0_2.index t (0 : Fin 2) * 64 + 1 * r.val) :
    qblk m c t (ix2 r h) = qarr m c (ix2 l h) := by
  obtain ⟨e0, e1, -, -, -, -⟩ := idx_facts t
  unfold qblk qarr iblk
  rw [View.read_apply]
  show V m c main_v18 _ = V m c main_v18 _
  congr 1
  funext a
  apply Fin.ext
  match a with
  | ⟨0, _⟩ => show win0_0.index t (0 : Fin 2) * 64 + 1 * r.val = l.val; rw [e0, hl]
  | ⟨1, _⟩ => show win0_0.index t (1 : Fin 2) * 128 + 1 * h.val = h.val; rw [e1]; omega

/-- The entity window's block at every point is the whole transposed table. -/
theorem eblk_apply (c : Dev nD) (t : Fin cfg0.N) (h : Fin 128) (j : Fin 10240) :
    eblk m c t (ix2 h j) = earr m c (ix2 h j) := by
  obtain ⟨-, -, e2, e3, -, -⟩ := idx_facts t
  unfold eblk earr iblk
  rw [View.read_apply]
  show V m c main_v28 _ = V m c main_v28 _
  congr 1
  funext a
  apply Fin.ext
  match a with
  | ⟨0, _⟩ => show win0_1.index t (0 : Fin 2) * 128 + 1 * h.val = h.val; rw [e2]; omega
  | ⟨1, _⟩ => show win0_1.index t (1 : Fin 2) * 10240 + 1 * j.val = j.val; rw [e3]; omega

/-- WHAT POINT `t` WRITES BACK is block `t` of `padded` of the two arrays as the region finds them. -/
theorem flushed_eq (c : Dev nD) (t : Fin cfg0.N) :
    (dats m 0 c).flushed 2 t
      = ((cfg0.win 2).blk t).view.read (Elt Ideal) (padded (qarr m c) (earr m c)) := by
  show (cfg0.win 2).cut (grid0.coords t) ((dats m 0 c).after 2 t) = _
  rw [after0_2]
  unfold outsAt0
  rw [out_eq]
  obtain ⟨e0, e1, e2, e3, e4, e5⟩ := idx_facts t
  funext j
  obtain ⟨r, q, rfl⟩ : ∃ (r : Fin 64) (q : Fin 10240), j = ix2 r q := ⟨j 0, j 1, eq_ix2 j⟩
  rw [View.read_apply]
  show k0_pay2 (F := Ideal) (distTile (qblk m c t) (eblk m c t)) (ix2 r q) = _
  rw [Cert.KernelIdeal.Payload.pay2_apply]
  unfold padded
  have hq : (⟨((((cfg0.win 2).blk t).view.emb (ix2 r q)) 1).val, idx2_lt1 _⟩ : Fin 10240) = q := by
    apply Fin.ext
    show win0_2.index t (1 : Fin 2) * 10240 + 1 * q.val = q.val
    rw [e4]; omega
  obtain ⟨l, hl, hlv⟩ : ∃ l : Fin 128, (⟨((((cfg0.win 2).blk t).view.emb (ix2 r q)) 0).val, idx2_lt0 _⟩ : Fin 128) = l
      ∧ l.val = win0_2.index t (0 : Fin 2) * 64 + 1 * r.val :=
    ⟨_, rfl, by show win0_2.index t (0 : Fin 2) * 64 + 1 * r.val = _; rfl⟩
  rw [hl, hq]
  exact congrArg (fun v => Cert.Spec.rowSoft v q) (funext fun j' =>
    tile_row (qblk m c t) (eblk m c t) (qarr m c) (earr m c) r l (fun h => qblk_apply m c t r h l hlv)
      (fun h j => eblk_apply m c t h j) j')

end Cert.KernelIdeal.KValue

end
-- ==== Proof.KernelTail.lean ====
/-
  The pallas_call's whole output array after the run (the two tiles of 64 rows cover it), the host slice after the
  call, and the kernel program's run read at its result.
-/
import proofs.«408745_j23021024706783_2_alg».proof.Proof.KernelBlocks
import Idealize.ShloMosaic.Lib.StableHlo.Run

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- An index of the output array is in point `t`'s block iff each coordinate is in the block's range on its axis. -/
theorem mem_blk (t : Fin cfg0.N) (i : S128x10240.Idx) :
    i ∈ ((cfg0.win 2).blk t).view.set ↔ ∀ a : Fin 2, win0_2.index t a * S64x10240.size a ≤ (i a).val
      ∧ (i a).val < win0_2.index t a * S64x10240.size a + S64x10240.size a := by
  show i ∈ ((View.whole main_v29).slice (win0_2.rect t)).set ↔ _
  rw [View.set_slice_whole, Rect.mem_set_unit]
  exact Iff.rfl

/-- THE OUTPUT ARRAY after the run: the two tiles of 64 rows cover it, so it is `padded` of the two arrays. -/
theorem final (c : Dev nD) : (dats m 0 c).arrAt 2 cfg0.N = padded (qarr m c) (earr m c) :=
  (dats m 0 c).arrAt_eq_of_cover 2 _ (fun t _ => flushed_eq m c t) fun i => by
    have hi0 : ((i : S128x10240.Idx) 0).val < 128 := idx2_lt0 (i : S128x10240.Idx)
    have hi1 : ((i : S128x10240.Idx) 1).val < 10240 := idx2_lt1 (i : S128x10240.Idx)
    obtain ⟨t, ht⟩ := idx_onto ⟨((i : S128x10240.Idx) 0).val / 64, by omega⟩
    have q0 : win0_2.index t (0 : Fin 2) = ((i : S128x10240.Idx) 0).val / 64 := congrFun ht 0
    have q1 : win0_2.index t (1 : Fin 2) = 0 := congrFun ht 1
    refine ⟨t, flush0_2 t, ?_⟩
    rw [mem_blk]
    intro a
    match a with
    | ⟨0, _⟩ =>
      show win0_2.index t (0 : Fin 2) * 64 ≤ ((i : S128x10240.Idx) 0).val
        ∧ ((i : S128x10240.Idx) 0).val < win0_2.index t (0 : Fin 2) * 64 + 64
      omega
    | ⟨1, _⟩ =>
      show win0_2.index t (1 : Fin 2) * 10240 ≤ ((i : S128x10240.Idx) 1).val
        ∧ ((i : S128x10240.Idx) 1).val < win0_2.index t (1 : Fin 2) * 10240 + 10240
      omega

/-- The program's result: the host slice after the call keeps the first 10000 columns of the output array. -/
theorem result_eq (c : Dev nD) :
    (Pipeline.afterTail₀ cfgs (dats m) 0 (V0 m) [hostOps1] c main_v30 : S128x10000.Idx → EReal)
      = extractStridedSlice S128x10000 ![0, 0] (padded (qarr m c) (earr m c)) slices_S128x10240_S128x10000_0_0 := by
  unfold Pipeline.afterTail₀
  show StableHlo.after hostOps1 _ (Proc.devRef .tc main_v30) = _
  after_results
  exact congrArg (fun x => extractStridedSlice S128x10000 ![0, 0] x slices_S128x10240_S128x10000_0_0)
    ((Pipeline.withArrays_arr spec0 launch0.win.arr_inj c (V0 m c) (fun w => (dats m 0 c).arrAt w (cfgs 0).N) 2).trans (final m c))

/-- THE KERNEL PROGRAM'S RUN, read: it ends with its result at the first 10000 columns of `padded` of the query array and
    the transposed entity table as the call finds them, its arguments unchanged. -/
theorem run : θ_run defs (onTc (τ := τ) (main (F := Ideal))) ⟨m, fun _ => 0, ρ⟩ fun r => ∀ c : Dev nD,
      r.2.mem ((c : Thread nD τ).loc main_v30)
        = extractStridedSlice S128x10000 ![0, 0] (padded (qarr m c) (earr m c)) slices_S128x10240_S128x10000_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.KernelHost.lean ====
/-
  What the kernel program's host operations before its one region leave in the two arrays the region reads.

  The query array: two row gathers (each index first wrapped when negative, the gathered rows kept only where the
  wrapped index is in range, a fixed filler elsewhere), each normalised row by row, added. Where every index is
  in range already the mask is 1 everywhere, the filler is never chosen, and the sum is the reference's own
  query stage. The entity array: the whole table normalised, continued by 240 rows of padding, transposed; at a
  column below 10000 it is the normalised table's entry, whatever the padding value.
-/
import proofs.«408745_j23021024706783_2_alg».proof.Proof.Gen.KernelIdeal.Frame.Runs
import proofs.«408745_j23021024706783_2_alg».proof.Proof.Gen.ReferenceIdeal.Read
import Idealize.ShloMosaic.Lib.KernelVsHost
import Idealize.ShloMosaic.Lib.StableHlo.Predicate
import Idealize.ShloMosaic.Lib.ValueIdx

noncomputable section

namespace Cert.KernelIdeal.HostVal

open Idealize.ShloMosaic Idealize.ShloMosaic.TcCoe Idealize.ShloMosaic.StableHlo Idealize.ShloMosaic.ValueIdx
open Cert.KernelIdeal Cert.KernelIdeal.Gen

section Terms
variable {F : FTy → Type} [FloatOps F] [Named F]

/-- The mask of rows whose (wrapped) index lies in `0 … hi`, copied along each row. -/
def inRange (hi : BitVec 32) (idx : (⟨S128x1, .i32⟩ : BufTy).Contents (Elt F)) : (⟨S128x128, .i1⟩ : BufTy).Contents (Elt F) :=
  broadcastInDim S128x128 ![0] bcast_S128_S128x128_0
    (Host.reduce IntOp.andi
      (andi (cmpi .sge idx (broadcastInDim S128x1 ![] bcast_S_S128x1 (constantI S_ 32 0#32)))
        (cmpi .sle idx (broadcastInDim S128x1 ![0, 1] bcast_S1x1_S128x1_0_1
          (broadcastInDim S1x1 ![1] bcast_S1_S1x1_1 (constantI S1 32 hi)))))
      (constantI S_ 1 1#1) reducesTo_S128x1_S128_d1 h_S_)

/-- A masked row gather: the gathered rows where the index is in range, a fixed filler elsewhere. -/
def masked (hi : BitVec 32) (idx : (⟨S128x1, .i32⟩ : BufTy).Contents (Elt F))
    (rows : (⟨S128x128, .f32⟩ : BufTy).Contents (Elt F)) : (⟨S128x128, .f32⟩ : BufTy).Contents (Elt F) :=
  select (inRange (F := F) hi idx) rows (broadcastInDim S128x128 ![] bcast_S_S128x128 (constant (F := F) S_ .f32 0x7FC00000#32))

/-- Each of 128 rows divided by the larger of its Euclidean length and a small positive constant. -/
def norm128 (x : (⟨S128x128, .f32⟩ : BufTy).Contents (Elt F)) : (⟨S128x128, .f32⟩ : BufTy).Contents (Elt F) :=
  Host.divf x (broadcastInDim S128x128 ![0, 1] bcast_S128x1_S128x128_0_1
    (maximumf (Host.sqrt (broadcastInDim S128x1 ![0] bcast_S128_S128x1_0
        (Host.reduceAdd (mulf x x) (constant (F := F) S_ .f32 0x00000000#32) reducesTo_S128x128_S128_d1 h_S_)))
      (broadcastInDim S128x1 ![] bcast_S_S128x1 (constant (F := F) S_ .f32 0x2B8CBCCC#32))))

end Terms

section Reads
variable {F : FTy → Type} [FloatOps F] [Named F]
variable (m : (ℓ : Loc nD τ sig) → Buf (Elt F) ℓ)

/-- The query array the region reads, as the operations' term over the launch memory. -/
theorem V_query (c : Dev nD) :
    (V m c main_v18 : (⟨S128x128, .f32⟩ : BufTy).Contents (Elt F)) =
      addf
        (norm128 (masked 9999#32 (Cert.ReferenceIdeal.Read.val_main_v5 (F := F) (m ((c : Thread nD τ).loc main_arg2)))
          (Host.gather gather_S10000x128_S128x1_S128x128_1_0_n_n_0_1_1128 (m ((c : Thread nD τ).loc main_arg0))
            (Cert.ReferenceIdeal.Read.val_main_v5 (F := F) (m ((c : Thread nD τ).loc main_arg2))))))
        (norm128 (masked 499#32 (Cert.ReferenceIdeal.Read.val_main_v20 (F := F) (m ((c : Thread nD τ).loc main_arg3)))
          (Host.gather gather_S500x128_S128x1_S128x128_1_0_n_n_0_1_1128 (m ((c : Thread nD τ).loc main_arg1))
            (Cert.ReferenceIdeal.Read.val_main_v20 (F := F) (m ((c : Thread nD τ).loc main_arg3)))))) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.ofBuf, StableHlo.TRef.toBuf, cast_eq]
  rfl

/-- The entity array the region reads: the reference's normalised table, padded by 240 rows and transposed. -/
theorem V_ent (c : Dev nD) :
    (V m c main_v28 : (⟨S128x10240, .f32⟩ : BufTy).Contents (Elt F)) =
      transpose S128x10240 [1, 0]
        (pad S10240x128 ![0, 0] ![240, 0] ![0, 0]
          (Cert.ReferenceIdeal.Read.val_main_v37 (F := F) (m ((c : Thread nD τ).loc main_arg0)))
          (sitofp (F := F) .f32 (constantI S_ 32 0#32)) pads_S10000x128_S10240x128_02400_000 h_S_)
        transposes_S10240x128_S128x10240_1_0 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.ofBuf, StableHlo.TRef.toBuf, cast_eq]
  rfl

end Reads

section Words

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

theorem cmpi_sge_one {a b : BitVec 32} (h : b.toInt ≤ a.toInt) : IntOp.cmpi .sge a b = 1#1 := by
  unfold IntOp.cmpi
  simp only [BitVec.sle, Predicate.ofBool_eq_one_iff, decide_eq_true_eq]
  exact h

theorem cmpi_sle_one {a b : BitVec 32} (h : a.toInt ≤ b.toInt) : IntOp.cmpi .sle a b = 1#1 := by
  unfold IntOp.cmpi
  simp only [BitVec.sle, Predicate.ofBool_eq_one_iff, decide_eq_true_eq]
  exact h

theorem cmpi_slt_zero {a b : BitVec 32} (h : b.toInt ≤ a.toInt) : IntOp.cmpi .slt a b = 0#1 := by
  unfold IntOp.cmpi
  simp only [BitVec.slt]
  rw [decide_eq_false (by omega)]
  rfl

end Words

section Masks
variable {F : FTy → Type} [FloatOps F] [Named F]

/-- Where every index lies in `0 … hi` the mask is 1 everywhere. -/
theorem inRange_eq_one (hi : BitVec 32) (idx : (⟨S128x1, .i32⟩ : BufTy).Contents (Elt F))
    (h : ∀ i, 0 ≤ (idx i).toInt ∧ (idx i).toInt ≤ hi.toInt) (j : S128x128.Idx) : inRange (F := F) hi idx j = 1#1 := by
  unfold inRange
  refine (broadcastInDim_apply _ bcast_S128_S128x128_0 _ j (ix1 (j 0)) (fun a => match a with
    | ⟨0, _⟩ => by show (j 0).val = if (128 : Nat) = 1 then 0 else (j 0).val; rw [if_neg (by decide)])).trans ?_
  rw [Host.reduce_eq_foldl]
  refine foldl_andi_one _ (fun i => ?_) _
  show IntOp.andi (IntOp.cmpi .sge (idx i) 0#32) (IntOp.cmpi .sle (idx i) hi) = 1#1
  rw [cmpi_sge_one (show (0#32 : BitVec 32).toInt ≤ (idx i).toInt from (h i).1), cmpi_sle_one (h i).2]
  decide

/-- Then the masked gather is the gather. -/
theorem masked_eq (hi : BitVec 32) (idx : (⟨S128x1, .i32⟩ : BufTy).Contents (Elt F))
    (rows : (⟨S128x128, .f32⟩ : BufTy).Contents (Elt F))
    (h : ∀ i, 0 ≤ (idx i).toInt ∧ (idx i).toInt ≤ hi.toInt) : masked (F := F) hi idx rows = rows := by
  funext j
  show Scalar.select (inRange (F := F) hi idx j) (rows j) _ = rows j
  rw [inRange_eq_one hi idx h j]
  rfl

/-- A non-negative index is its own wrap. -/
theorem idx0_apply (x2 : (⟨S128, .i32⟩ : BufTy).Contents (Elt F)) (h2 : ∀ i : S128.Idx, 0 ≤ (x2 i).toInt) (i : S128x1.Idx) :
    Cert.ReferenceIdeal.Read.val_main_v5 (F := F) x2 i = x2 (Cert.ReferenceIdeal.Read.idx_main_v5 i) := by
  rw [Cert.ReferenceIdeal.Read.val_main_v5_apply, Cert.ReferenceIdeal.Read.val_main_v4_apply, Cert.ReferenceIdeal.Read.val_main_v1_apply,
    Cert.ReferenceIdeal.Read.val_main_v0_apply, Cert.ReferenceIdeal.Read.val_main_c_apply]
  rw [cmpi_slt_zero (show (0#32 : BitVec 32).toInt ≤ _ from h2 _)]
  rfl

theorem idx1_apply (x3 : (⟨S128, .i32⟩ : BufTy).Contents (Elt F)) (h3 : ∀ i : S128.Idx, 0 ≤ (x3 i).toInt) (i : S128x1.Idx) :
    Cert.ReferenceIdeal.Read.val_main_v20 (F := F) x3 i = x3 (Cert.ReferenceIdeal.Read.idx_main_v20 i) := by
  rw [Cert.ReferenceIdeal.Read.val_main_v20_apply, Cert.ReferenceIdeal.Read.val_main_v19_apply, Cert.ReferenceIdeal.Read.val_main_v16_apply,
    Cert.ReferenceIdeal.Read.val_main_v15_apply, Cert.ReferenceIdeal.Read.val_main_c_2_apply]
  rw [cmpi_slt_zero (show (0#32 : BitVec 32).toInt ≤ _ from h3 _)]
  rfl

/-- The two normalised gathers added are the reference's query stage. -/
theorem norm_add_eq (x0 : (⟨S10000x128, .f32⟩ : BufTy).Contents (Elt F)) (x1 : (⟨S500x128, .f32⟩ : BufTy).Contents (Elt F))
    (x2 x3 : (⟨S128, .i32⟩ : BufTy).Contents (Elt F)) :
    addf (norm128 (Cert.ReferenceIdeal.Read.val_main_v6 (F := F) x0 x2)) (norm128 (Cert.ReferenceIdeal.Read.val_main_v21 (F := F) x1 x3))
      = Cert.ReferenceIdeal.Read.val_main_v38 (F := F) x0 x1 x2 x3 := rfl

end Masks

section Final
variable (m : (ℓ : Loc nD τ sig) → Buf (Elt Ideal) ℓ)

/-- With every index in range the query array is the reference's query stage. -/
theorem query_eq (c : Dev nD)
    (h2 : ∀ i : S128.Idx, 0 ≤ (m ((c : Thread nD τ).loc main_arg2) i).toInt ∧ (m ((c : Thread nD τ).loc main_arg2) i).toInt < 10000)
    (h3 : ∀ i : S128.Idx, 0 ≤ (m ((c : Thread nD τ).loc main_arg3) i).toInt ∧ (m ((c : Thread nD τ).loc main_arg3) i).toInt < 500) :
    (V m c main_v18 : S128x128.Idx → EReal) = Cert.ReferenceIdeal.Read.val_main_v38 (F := Ideal) (m ((c : Thread nD τ).loc main_arg0))
      (m ((c : Thread nD τ).loc main_arg1)) (m ((c : Thread nD τ).loc main_arg2)) (m ((c : Thread nD τ).loc main_arg3)) := by
  refine (V_query m c).trans ?_
  have e0 : ∀ i, 0 ≤ (Cert.ReferenceIdeal.Read.val_main_v5 (F := Ideal) (m ((c : Thread nD τ).loc main_arg2)) i).toInt
      ∧ (Cert.ReferenceIdeal.Read.val_main_v5 (F := Ideal) (m ((c : Thread nD τ).loc main_arg2)) i).toInt ≤ (9999#32 : BitVec 32).toInt := fun i => by
    rw [idx0_apply _ (fun j => (h2 j).1), show (9999#32 : BitVec 32).toInt = 9999 from by decide]
    have := h2 (Cert.ReferenceIdeal.Read.idx_main_v5 i)
    omega
  have e1 : ∀ i, 0 ≤ (Cert.ReferenceIdeal.Read.val_main_v20 (F := Ideal) (m ((c : Thread nD τ).loc main_arg3)) i).toInt
      ∧ (Cert.ReferenceIdeal.Read.val_main_v20 (F := Ideal) (m ((c : Thread nD τ).loc main_arg3)) i).toInt ≤ (499#32 : BitVec 32).toInt := fun i => by
    rw [idx1_apply _ (fun j => (h3 j).1), show (499#32 : BitVec 32).toInt = 499 from by decide]
    have := h3 (Cert.ReferenceIdeal.Read.idx_main_v20 i)
    omega
  rw [masked_eq _ _ _ e0, masked_eq _ _ _ e1]
  exact norm_add_eq _ _ _ _

/-- The transposed, padded table at a column below 10000 is the normalised table's entry. -/
theorem entT_apply (c : Dev nD) (h : Fin 128) (n : Fin 10000) :
    (V m c main_v28 : S128x10240.Idx → EReal) (ix2 h ⟨n.val, by omega⟩)
      = Cert.ReferenceIdeal.Read.val_main_v37 (F := Ideal) (m ((c : Thread nD τ).loc main_arg0)) (ix2 n h) := by
  refine (congrFun (V_ent m c) _).trans ?_
  refine (transpose_apply _ _ transposes_S10240x128_S128x10240_1_0 (ix2 h ⟨n.val, by omega⟩) (ix2 ⟨n.val, by omega⟩ h)
    (fun b => match b with | ⟨0, _⟩ => rfl | ⟨1, _⟩ => rfl)).trans ?_
  exact pad_apply_of_inside _ _ _ _ _ pads_S10000x128_S10240x128_02400_000 h_S_ (ix2 ⟨n.val, by omega⟩ h) (ix2 n h)
    (fun a => match a with
      | ⟨0, _⟩ => by show n.val = 0 + n.val * (0 + 1); omega
      | ⟨1, _⟩ => by show h.val = 0 + h.val * (0 + 1); omega)

end Final

end Cert.KernelIdeal.HostVal

end
-- ==== Proof.PreDecode.lean ====
/-
  The precondition decoded: every entry of the two index inputs lies in its table's range.

  The printed precondition is a conjunction (a chain of bitwise `and` on one-bit scalars) of six tests, each an
  "all entries satisfy" reduction by `and` of an elementwise comparison. Its value being the bit 1 gives each
  conjunct the bit 1; an and-reduction over every axis that is 1 met a 1 at every entry; and a signed comparison
  word that is 1 is the order of the two words read as integers. The two tests on the floating-point tables are
  split off and not used here.
-/
import proofs.«408745_j23021024706783_2_alg».proof.Pre_finite_inputs
import proofs.«408745_j23021024706783_2_alg».proof.Proof.Gen.Pre_finite_inputs
import Idealize.ShloMosaic.Lib.ReduceAll
import Idealize.ShloMosaic.Lib.ValueIdx

namespace Cert.Pre_finite_inputs.Decode

open Idealize.ShloMosaic

/-- The scalar shape has one index. -/
instance : Subsingleton S_.Idx := ⟨fun a b => funext fun d => d.elim0⟩

/-- A scalar constant laid over any shape reads that constant at every position. -/
theorem bcast_const {t : Shape} (hb : S_.BroadcastsInDim t (![] : Fin 0 → Fin t.rank)) (c : BitVec 32) (j : t.Idx) :
    broadcastInDim t ![] hb (constantI S_ 32 c) j = c := rfl

/-- "Every entry is at least the constant c", read back at one entry: c ≤ x i as integers. -/
theorem all_sge {t : Shape} {axes : List (Fin t.rank)} (x : IVec t 32) (c : BitVec 32)
    (hb : S_.BroadcastsInDim t (![] : Fin 0 → Fin t.rank)) (hr : t.ReducesTo axes S_) (h0 : 0 < S_.numel)
    (e : Host.reduce IntOp.andi (cmpi .sge x (broadcastInDim t ![] hb (constantI S_ 32 c))) (constantI S_ 1 1#1) hr h0
      ValueIdx.ix0 = 1#1) (i : t.Idx) : c.toInt ≤ (x i).toInt := by
  have hi := Host.reduce_andi_all _ _ hr h0 ValueIdx.ix0 e i
  -- the comparison at entry i compares x i with the broadcast constant's entry, which is c
  have hc : IntOp.cmpi .sge (x i) c = 1#1 := hi
  exact IntOp.cmpi_sge.1 hc

/-- "Every entry is below the constant c", read back at one entry: x i < c as integers. -/
theorem all_slt {t : Shape} {axes : List (Fin t.rank)} (x : IVec t 32) (c : BitVec 32)
    (hb : S_.BroadcastsInDim t (![] : Fin 0 → Fin t.rank)) (hr : t.ReducesTo axes S_) (h0 : 0 < S_.numel)
    (e : Host.reduce IntOp.andi (cmpi .slt x (broadcastInDim t ![] hb (constantI S_ 32 c))) (constantI S_ 1 1#1) hr h0
      ValueIdx.ix0 = 1#1) (i : t.Idx) : (x i).toInt < c.toInt := by
  have hi := Host.reduce_andi_all _ _ hr h0 ValueIdx.ix0 e i
  have hc : IntOp.cmpi .slt (x i) c = 1#1 := hi
  exact IntOp.cmpi_slt.1 hc

/-- THE PRECONDITION DECODED: the first index input's entries lie in [0, 10000), the second's in [0, 500). -/
theorem idx_ranges {F : FTy → Type} [FloatOps F] [Cert.Pre_finite_inputs.Facts]
    (a0 : FVec F S10000x128 .f32) (a1 : FVec F S500x128 .f32) (a2 a3 : IVec S128 32)
    (h : Cert.Pre_finite_inputs.fn (F := F) a0 a1 a2 a3 = fun _ => 1#1) :
    (∀ i : S128.Idx, 0 ≤ (a2 i).toInt ∧ (a2 i).toInt < 10000) ∧
      (∀ i : S128.Idx, 0 ≤ (a3 i).toInt ∧ (a3 i).toInt < 500) := by
  have e := congrFun h ValueIdx.ix0
  dsimp only [Cert.Pre_finite_inputs.fn, Cert.Pre_finite_inputs.fn_part1] at e
  -- the value at the one index is the and of the six conjuncts' bits: each is 1
  simp only [andi, IntOp.andi_eq_one] at e
  obtain ⟨⟨⟨⟨-, h2ge⟩, h2lt⟩, h3ge⟩, h3lt⟩ := e
  have z0 : (0#32 : BitVec 32).toInt = 0 := by decide
  have z1 : (10000#32 : BitVec 32).toInt = 10000 := by decide
  have z2 : (500#32 : BitVec 32).toInt = 500 := by decide
  refine ⟨fun i => ⟨?_, ?_⟩, fun i => ⟨?_, ?_⟩⟩
  · have := all_sge a2 0#32 _ _ _ h2ge i; rwa [z0] at this
  · have := all_slt a2 10000#32 _ _ _ h2lt i; rwa [z1] at this
  · have := all_sge a3 0#32 _ _ _ h3ge i; rwa [z0] at this
  · have := all_slt a3 500#32 _ _ _ h3lt i; rwa [z2] at this

end Cert.Pre_finite_inputs.Decode
-- ==== Proof.RefValue.lean ====
/-
  The reference program's result is the specification G of two of its own intermediate stages: the
  query array Q (128 rows of 128 features) and the normalised entity table E (10000 rows of 128 features).

  From those two stages on the program broadcasts both to [128, 10000, 128], subtracts, takes absolute
  values and sums over the last axis: the Manhattan distances dist Q E l n. It then takes each row's
  largest distance (a fold of max from -∞, then once more max with -∞, which changes nothing),
  subtracts it, exponentiates, sums the exponentials over the 10000 columns and divides: the row's softmax.
-/
import proofs.«408745_j23021024706783_2_alg».proof.Proof.Gen.ReferenceIdeal.Read
import proofs.«408745_j23021024706783_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

/-- The bit pattern of -∞ is the least extended real. -/
theorem ofBits_negInf : Ideal.ofBits .f32 0xFF800000#32 = (⊥ : EReal) := by
  simp [Ideal.ofBits, Ideal.ieee]

section Stages

variable (x0 : (⟨S10000x128, .f32⟩ : BufTy).Contents (Elt Ideal)) (x1 : (⟨S500x128, .f32⟩ : BufTy).Contents (Elt Ideal))
  (x2 x3 : (⟨S128, .i32⟩ : BufTy).Contents (Elt Ideal))

/-- The distance stage at (l, n) is the Manhattan distance between query l and entity n: the sum over the
    128 features of the absolute difference, from the initial value zero. -/
theorem dist_stage (l : Fin 128) (n : Fin 10000) :
    val_main_v45 (F := Ideal) x0 x1 x2 x3 (ix2 l n)
      = Cert.Spec.dist (val_main_v38 (F := Ideal) x0 x1 x2 x3) (val_main_v37 (F := Ideal) x0) l n := by
  rw [val_main_v45_apply, val_main_cst_8_apply, Ideal.ofBits_def, Ideal.ofBits_zero_f32, zero_add]
  unfold Cert.Spec.dist
  refine Finset.sum_congr rfl fun k _ => ?_
  rw [val_main_v44_apply, val_main_v43_apply, val_main_v41_apply, val_main_v39_apply, val_main_v42_apply,
    val_main_v40_apply, Ideal.hostAbsf_def, Ideal.absf_def, Ideal.subf_def]
  have e1 : idx_main_v39 (idx_main_v41 (idx_main_v45 (ix2 l n) k)) = ix2 l k :=
    funext fun a => Fin.ext (by match a with | ⟨0, _⟩ => rfl | ⟨1, _⟩ => rfl)
  have e2 : idx_main_v40 (idx_main_v42 (idx_main_v45 (ix2 l n) k)) = ix2 n k :=
    funext fun a => Fin.ext (by match a with | ⟨0, _⟩ => rfl | ⟨1, _⟩ => rfl)
  rw [e1, e2]

/-- The row-maximum stage at l: the fold of max from -∞ over the row's 10000 distances, and max with -∞
    once more, which is the identity. -/
theorem top_stage (l : Fin 128) :
    val_main_v48 (F := Ideal) x0 x1 x2 x3 (ix1 l)
      = Cert.Spec.rowTop (Cert.Spec.dist (val_main_v38 (F := Ideal) x0 x1 x2 x3) (val_main_v37 (F := Ideal) x0) l) := by
  have hR : S128x10000.Reduces [1] S128 := by decide
  rw [val_main_v48_apply, val_main_v47_apply, val_main_cst_10_apply, Ideal.ofBits_def, ofBits_negInf,
    Ideal.maximumf_def, max_eq_right bot_le]
  unfold val_main_v46
  rw [Host.reduce_eq_fold_single FloatOps.maximumf _ _ reducesTo_S128x10000_S128_d1 hR h_S_ (ix1 l)]
  rw [val_main_cst_9_apply, Ideal.ofBits_def, ofBits_negInf]
  unfold Cert.Spec.rowTop
  refine Finset.fold_congr fun k _ => ?_
  refine Eq.trans ?_ (dist_stage x0 x1 x2 x3 l k)
  exact congrArg (val_main_v45 (F := Ideal) x0 x1 x2 x3)
    (funext fun a => Fin.ext (by match a with | ⟨0, _⟩ => rfl | ⟨1, _⟩ => rfl))

/-- The exponential stage at (l, n): the exponential of the distance less the row's largest distance. -/
theorem exp_stage (l : Fin 128) (n : Fin 10000) :
    val_main_v52 (F := Ideal) x0 x1 x2 x3 (ix2 l n)
      = Ideal.exp (Cert.Spec.dist (val_main_v38 (F := Ideal) x0 x1 x2 x3) (val_main_v37 (F := Ideal) x0) l n
          - Cert.Spec.rowTop (Cert.Spec.dist (val_main_v38 (F := Ideal) x0 x1 x2 x3) (val_main_v37 (F := Ideal) x0) l)) := by
  rw [val_main_v52_apply, val_main_v51_apply, val_main_v50_apply, val_main_v49_apply, Ideal.hostUnary_exp_def,
    Ideal.subf_def, dist_stage]
  have e : idx_main_v49 (idx_main_v50 (ix2 l n)) = ix1 l :=
    funext fun a => Fin.ext (by match a with | ⟨0, _⟩ => rfl)
  rw [e, top_stage]

end Stages

/-- The reference's result is the specification of its query stage and its entity stage: at (l, n) the
    exponential stage divided by the sum of the row's exponential stages, from the initial value zero. -/
theorem result_eq (x0 : (⟨S10000x128, .f32⟩ : BufTy).Contents (Elt Ideal)) (x1 : (⟨S500x128, .f32⟩ : BufTy).Contents (Elt Ideal)) (x2 x3 : (⟨S128, .i32⟩ : BufTy).Contents (Elt Ideal)) :
    Cert.ReferenceIdeal.Read.val_main_v56 (F := Ideal) x0 x1 x2 x3
      = Cert.Spec.G (Cert.ReferenceIdeal.Read.val_main_v38 (F := Ideal) x0 x1 x2 x3) (Cert.ReferenceIdeal.Read.val_main_v37 (F := Ideal) x0) := by
  funext i
  obtain ⟨l, n, rfl⟩ : ∃ (l : Fin 128) (n : Fin 10000), i = ix2 l n := ⟨i 0, i 1, eq_ix2 i⟩
  rw [Cert.Spec.G_apply]
  unfold Cert.Spec.rowSoft
  rw [val_main_v56_apply, val_main_v55_apply, val_main_v54_apply, val_main_v53_apply, val_main_cst_11_apply,
    Ideal.hostDivf_def, Ideal.ofBits_def, Ideal.ofBits_zero_f32, zero_add, exp_stage]
  refine congrArg (Ideal.div _) (Finset.sum_congr rfl fun k _ => ?_)
  refine Eq.trans ?_ (exp_stage x0 x1 x2 x3 l k)
  exact congrArg (val_main_v52 (F := Ideal) x0 x1 x2 x3)
    (funext fun a => Fin.ext (by match a with | ⟨0, _⟩ => rfl | ⟨1, _⟩ => rfl))

end Cert.ReferenceIdeal.RefValue

end
-- ==== Proof.lean ====
/-
  The proof of `Cert.Claim`: the TransE-style retrieval scorer — gather and L2-normalise two rows per query, add them,
  L2-normalise the 10000 entities, take each query's Manhattan distance to every entity and the softmax of each row
  of distances — as a Pallas kernel over tiles of 64 queries against its jnp reference, on the extended reals.

  Both programs build the query array and the normalised entity table by the same host operations, except that the
  kernel program's `jnp.take` masks out-of-range indices to NaN where the reference's `x[idx]` clamps them: under the
  stated precondition (every index in its table's range) the mask is all ones and the two agree. The kernel then works
  on the table padded to 10240 columns and transposed; its padding columns are masked to the named constant `neg_big`,
  which denotes -∞, so they change neither a row's maximum nor its sum of exponentials (`Cert.Spec.rowSoft_pad`: `⊥ - x = ⊥`
  and `exp ⊥ = 0` on all extended reals), and the host slice after the call drops them. Of the precondition's conjuncts
  the proof uses the index ranges; the law that joins the two sides needs no finiteness of the float inputs.

  The modules: Spec (the mathematics), KernelIdealLoop / KernelIdealRunA / KernelIdealFrame and their `Kernel` twins (the
  body's run through its loop, and the frame), KernelPayload, KernelBody, KernelBlocks, KernelTail (the kernel program's
  value), KernelHost (its host operations before the call), PreDecode (the precondition read), RefValue (the reference).
-/
import proofs.«408745_j23021024706783_2_alg».proof.Defs
import proofs.«408745_j23021024706783_2_alg».proof.Proof.Gen.Kernel
import proofs.«408745_j23021024706783_2_alg».proof.Proof.Gen.KernelIdeal
import proofs.«408745_j23021024706783_2_alg».proof.Proof.Gen.ReferenceIdeal
import proofs.«408745_j23021024706783_2_alg».proof.Proof.Gen.ReferenceIdeal.Run
import proofs.«408745_j23021024706783_2_alg».proof.Proof.Gen.ReferenceIdeal.Read
import proofs.«408745_j23021024706783_2_alg».proof.Proof.Gen.Pre_finite_inputs
import proofs.«408745_j23021024706783_2_alg».proof.Proof.KernelFrame
import proofs.«408745_j23021024706783_2_alg».proof.Proof.KernelTail
import proofs.«408745_j23021024706783_2_alg».proof.Proof.KernelHost
import proofs.«408745_j23021024706783_2_alg».proof.Proof.PreDecode
import proofs.«408745_j23021024706783_2_alg».proof.Proof.RefValue
import proofs.«408745_j23021024706783_2_alg».proof.Proof.Spec
import Idealize.ShloMosaic.Lib.ValueLayout
import Idealize.ShloMosaic.PureOps.IdealRules
import Idealize.ShloMosaic.Adequacy
import Idealize.ShloMosaic.Init

noncomputable section

open Idealize.ShloMosaic Idealize.ShloMosaic.TcCoe Idealize.ShloMosaic.ValueIdx Idealize.SL.Sem

namespace Cert.KernelIdeal.KValue

open Cert.KernelIdeal Cert.KernelIdeal.Gen

/-- The first 10000 columns of the padded output are the specification's softmax, when the transposed table's columns
    below 10000 are the entity table's rows. -/
theorem slice_padded (Qa : S128x128.Idx → EReal) (ET : S128x10240.Idx → EReal) (E : S10000x128.Idx → EReal)
    (hET : ∀ (h : Fin 128) (n : Fin 10000), ET (ix2 h (⟨n.val, by omega⟩ : Fin 10240)) = E (ix2 n h)) :
    extractStridedSlice S128x10000 ![0, 0] (padded Qa ET) slices_S128x10240_S128x10000_0_0 = Cert.Spec.G Qa E := by
  funext i
  obtain ⟨l, n, rfl⟩ : ∃ (l : Fin 128) (n : Fin 10000), i = ix2 l n := ⟨i 0, i 1, eq_ix2 i⟩
  rw [Cert.Spec.G_apply, ← Cert.Spec.rowSoft_pad]
  refine (slice2_axis1_apply 0 (padded Qa ET) slices_S128x10240_S128x10000_0_0 l n (Fin.castAdd 240 n) (by simp)).trans ?_
  unfold padded
  refine congrArg (fun v => Cert.Spec.rowSoft v (Fin.castAdd 240 n)) (funext fun j' => ?_)
  unfold Cert.Spec.padRow
  by_cases hj : j'.val < 10000
  · rw [if_pos hj, dif_pos hj]
    unfold Cert.Spec.dist
    refine Finset.sum_congr rfl fun h _ => ?_
    rw [← hET h ⟨j'.val, hj⟩]
  · rw [if_neg hj, dif_neg hj]

end Cert.KernelIdeal.KValue

namespace Cert.Proof

open Cert.KernelIdeal.KValue

theorem frame_p : Cert.frame_Kernel := fun m ρ _ => Cert.Kernel.GenP.frame m ρ
theorem frame_pi : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives `"neg_big"` the value -∞, and the printed constant is that
    value at the ideal instance. -/
theorem preserves : Cert.preserves_Kernel_KernelIdeal :=
  IdealRules.named_const.statement Cert.KernelIdeal.κ "neg_big" .f32 0xFF333332#32 ⊥ rfl

/-- Both programs end with the specification's softmax of the reference's own query array and normalised entity table. -/
theorem algebraic : Cert.algebraic_KernelIdeal_ReferenceIdeal := by
  intro m ρ m' ρ' hpre hagree
  refine ⟨fun c => Cert.Spec.G
      (Cert.ReferenceIdeal.Read.val_main_v38 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.ReferenceIdeal.Read.val_main_v37 (F := Ideal) (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩) (Cert.KernelIdeal.KValue.run m ρ)
    obtain ⟨h2, h3⟩ := Cert.Pre_finite_inputs.Decode.idx_ranges (F := Ideal) _ _ _ _ (hpre c)
    unfold qarr
    rw [Cert.KernelIdeal.HostVal.query_eq m c h2 h3]
    exact slice_padded _ _ _ (fun h n => Cert.KernelIdeal.HostVal.entT_apply m c h n)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
